-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000 : Shape := ⟨1, ![50000]⟩
abbrev S150000 : Shape := ⟨1, ![150000]⟩
abbrev S100000 : Shape := ⟨1, ![100000]⟩
abbrev S2x150000 : Shape := ⟨2, ![2, 150000]⟩
abbrev S3x100000 : Shape := ⟨2, ![3, 100000]⟩
abbrev S3x32 : Shape := ⟨2, ![3, 32]⟩
abbrev S32 : Shape := ⟨1, ![32]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000 : S_.BroadcastsInDim S50000 (![] : Fin 0 → Fin S50000.rank)
  reducesTo_S50000_S_d0 : S50000.ReducesTo [0] S_
  bcast_S_S150000 : S_.BroadcastsInDim S150000 (![] : Fin 0 → Fin S150000.rank)
  reducesTo_S150000_S_d0 : S150000.ReducesTo [0] S_
  bcast_S_S100000 : S_.BroadcastsInDim S100000 (![] : Fin 0 → Fin S100000.rank)
  reducesTo_S100000_S_d0 : S100000.ReducesTo [0] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S3x32 .f32) (main_arg8 : FVec F S32 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S3x32 .f32 := Host.absf main_arg7
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S50000x3 .f32) (main_arg1 : FVec F S50000 .f32) (main_arg2 : FVec F S150000 .f32) (main_arg3 : FVec F S100000 .f32) (main_arg4 : IVec S50000 32) (main_arg5 : IVec S2x150000 32) (main_arg6 : IVec S3x100000 32) (main_arg7 : FVec F S3x32 .f32) (main_arg8 : FVec F S32 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S150000 .f32 := Host.absf main_arg2
  let main_cst_2 : FVec F S_ .f32 := constant S_ .f32 0x7F800000#32
  let main_v10 : FVec F S150000 .f32 := broadcastInDim S150000 ![] bcast_S_S150000 main_cst_2
  let main_v11 : IVec S150000 1 := cmpf .olt main_v9 main_v10
  let main_c_3 : IVec S_ 1 := constantI S_ 1 1#1
  let main_v12 : IVec S_ 1 := (fun x v => Host.reduce IntOp.andi x v reducesTo_S150000_S_d0 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg7 main_arg8 main_v13 main_v16
-- ==== Kernel.lean ====
abbrev S50000x3 : Shape := ⟨2, ![50000, 3]⟩
abbrev S50000 : Shape := ⟨1, ![50000]⟩
abbrev S150000 : Shape := ⟨1, ![150000]⟩
abbrev S100000 : Shape := ⟨1, ![100000]⟩
abbrev S2x150000 : Shape := ⟨2, ![2, 150000]⟩
abbrev S3x100000 : Shape := ⟨2, ![3, 100000]⟩
abbrev S3x32 : Shape := ⟨2, ![3, 32]⟩
abbrev S32 : Shape := ⟨1, ![32]⟩
abbrev S50000x1 : Shape := ⟨2, ![50000, 1]⟩
abbrev S50000x32 : Shape := ⟨2, ![50000, 32]⟩
abbrev S1x32 : Shape := ⟨2, ![1, 32]⟩
abbrev S64x32x32 : Shape := ⟨3, ![64, 32, 32]⟩
abbrev S2000x32 : Shape := ⟨2, ![2000, 32]⟩
abbrev S2000x1 : Shape := ⟨2, ![2000, 1]⟩
abbrev S2000 : Shape := ⟨1, ![2000]⟩
abbrev S1x32x1 : Shape := ⟨3, ![1, 32, 1]⟩
abbrev S2000x1x32 : Shape := ⟨3, ![2000, 1, 32]⟩
abbrev S2000x32x32 : Shape := ⟨3, ![2000, 32, 32]⟩
abbrev S2000x1024 : Shape := ⟨2, ![2000, 1024]⟩
abbrev S64x2000 : Shape := ⟨2, ![64, 2000]⟩
abbrev S1x2000 : Shape := ⟨2, ![1, 2000]⟩
abbrev S64x1024 : Shape := ⟨2, ![64, 1024]⟩
abbrev S_ : Shape := ⟨0, ![]⟩
abbrev S2x150000x1 : Shape := ⟨3, ![2, 150000, 1]⟩
abbrev S2x150000x32 : Shape := ⟨3, ![2, 150000, 32]⟩
abbrev S150000x32 : Shape := ⟨2, ![150000, 32]⟩
abbrev S150000x1 : Shape := ⟨2, ![150000, 1]⟩
abbrev S1x150000 : Shape := ⟨2, ![1, 150000]⟩
abbrev S3x100000x1 : Shape := ⟨3, ![3, 100000, 1]⟩
abbrev S3x100000x32 : Shape := ⟨3, ![3, 100000, 32]⟩
abbrev S100000x32 : Shape := ⟨2, ![100000, 32]⟩
abbrev S100000x1 : Shape := ⟨2, ![100000, 1]⟩
abbrev S1x100000 : Shape := ⟨2, ![1, 100000]⟩

abbrev nBuf : Space → Nat
  | .hbm => 74
  | .vmem => 18
  | .smem => 0
  | _ => 0

abbrev bufTy : (tb : Table) → Fin (tcTables nBuf tb) → BufTy
  | .hbm, ⟨0, _⟩ => ⟨S50000x3, .f32⟩
  | .hbm, ⟨1, _⟩ => ⟨S50000, .f32⟩
  | .hbm, ⟨2, _⟩ => ⟨S150000, .f32⟩
  | .hbm, ⟨3, _⟩ => ⟨S100000, .f32⟩
  | .hbm, ⟨4, _⟩ => ⟨S50000, .i32⟩
  | .hbm, ⟨5, _⟩ => ⟨S2x150000, .i32⟩
  | .hbm, ⟨6, _⟩ => ⟨S3x100000, .i32⟩
  | .hbm, ⟨7, _⟩ => ⟨S3x32, .f32⟩
  | .hbm, ⟨8, _⟩ => ⟨S32, .f32⟩
  | .hbm, ⟨9, _⟩ => ⟨S50000x1, .f32⟩
  | .hbm, ⟨10, _⟩ => ⟨S50000x3, .f32⟩
  | .hbm, ⟨11, _⟩ => ⟨S50000x3, .f32⟩
  | .hbm, ⟨12, _⟩ => ⟨S50000x32, .f32⟩
  | .hbm, ⟨13, _⟩ => ⟨S50000x1, .i32⟩
  | .hbm, ⟨14, _⟩ => ⟨S1x32, .f32⟩
  | .hbm, ⟨15, _⟩ => ⟨S64x32x32, .f32⟩
  | .hbm, ⟨16, _⟩ => ⟨S_, .i32⟩
  | .hbm, ⟨17, _⟩ => ⟨S2x150000, .i32⟩
  | .hbm, ⟨18, _⟩ => ⟨S2x150000, .i1⟩
  | .hbm, ⟨19, _⟩ => ⟨S_, .i32⟩
  | .hbm, ⟨20, _⟩ => ⟨S2x150000, .i32⟩
  | .hbm, ⟨21, _⟩ => ⟨S2x150000, .i32⟩
  | .hbm, ⟨22, _⟩ => ⟨S2x150000, .i32⟩
  | .hbm, ⟨23, _⟩ => ⟨S2x150000x1, .i32⟩
  | .hbm, ⟨24, _⟩ => ⟨S2x150000x32, .f32⟩
  | .hbm, ⟨25, _⟩ => ⟨S_, .f32⟩
  | .hbm, ⟨26, _⟩ => ⟨S150000x32, .f32⟩
  | .hbm, ⟨27, _⟩ => ⟨S150000x1, .f32⟩
  | .hbm, ⟨28, _⟩ => ⟨S150000x32, .f32⟩
  | .hbm, ⟨29, _⟩ => ⟨S150000x32, .f32⟩
  | .hbm, ⟨30, _⟩ => ⟨S1x150000, .i32⟩
  | .hbm, ⟨31, _⟩ => ⟨S150000, .i32⟩
  | .hbm, ⟨32, _⟩ => ⟨S_, .i32⟩
  | .hbm, ⟨33, _⟩ => ⟨S150000, .i32⟩
  | .hbm, ⟨34, _⟩ => ⟨S150000, .i1⟩
  | .hbm, ⟨35, _⟩ => ⟨S_, .i32⟩
  | .hbm, ⟨36, _⟩ => ⟨S150000, .i32⟩
  | .hbm, ⟨37, _⟩ => ⟨S150000, .i32⟩
  | .hbm, ⟨38, _⟩ => ⟨S150000, .i32⟩
  | .hbm, ⟨39, _⟩ => ⟨S150000x1, .i32⟩
  | .hbm, ⟨40, _⟩ => ⟨S150000, .i32⟩
  | .hbm, ⟨41, _⟩ => ⟨S150000x1, .i32⟩
  | .hbm, ⟨42, _⟩ => ⟨S1x32, .f32⟩
  | .hbm, ⟨43, _⟩ => ⟨S64x32x32, .f32⟩
  | .hbm, ⟨44, _⟩ => ⟨S_, .i32⟩
  | .hbm, ⟨45, _⟩ => ⟨S3x100000, .i32⟩
  | .hbm, ⟨46, _⟩ => ⟨S3x100000, .i1⟩
  | .hbm, ⟨47, _⟩ => ⟨S_, .i32⟩
  | .hbm, ⟨48, _⟩ => ⟨S3x100000, .i32⟩
  | .hbm, ⟨49, _⟩ => ⟨S3x100000, .i32⟩
  | .hbm, ⟨50, _⟩ => ⟨S3x100000, .i32⟩
  | .hbm, ⟨51, _⟩ => ⟨S3x100000x1, .i32⟩
  | .hbm, ⟨52, _⟩ => ⟨S3x100000x32, .f32⟩
  | .hbm, ⟨53, _⟩ => ⟨S_, .f32⟩
  | .hbm, ⟨54, _⟩ => ⟨S100000x32, .f32⟩
  | .hbm, ⟨55, _⟩ => ⟨S100000x1, .f32⟩
  | .hbm, ⟨56, _⟩ => ⟨S100000x32, .f32⟩
  | .hbm, ⟨57, _⟩ => ⟨S100000x32, .f32⟩
  | .hbm, ⟨58, _⟩ => ⟨S1x100000, .i32⟩
  | .hbm, ⟨59, _⟩ => ⟨S100000, .i32⟩
  | .hbm, ⟨60, _⟩ => ⟨S_, .i32⟩
  | .hbm, ⟨61, _⟩ => ⟨S100000, .i32⟩
  | .hbm, ⟨62, _⟩ => ⟨S100000, .i1⟩
  | .hbm, ⟨63, _⟩ => ⟨S_, .i32⟩
  | .hbm, ⟨64, _⟩ => ⟨S100000, .i32⟩
  | .hbm, ⟨65, _⟩ => ⟨S100000, .i32⟩
  | .hbm, ⟨66, _⟩ => ⟨S100000, .i32⟩
  | .hbm, ⟨67, _⟩ => ⟨S100000x1, .i32⟩
  | .hbm, ⟨68, _⟩ => ⟨S100000, .i32⟩
  | .hbm, ⟨69, _⟩ => ⟨S100000x1, .i32⟩
  | .hbm, ⟨70, _⟩ => ⟨S1x32, .f32⟩
  | .hbm, ⟨71, _⟩ => ⟨S64x32x32, .f32⟩
  | .hbm, ⟨72, _⟩ => ⟨S64x32x32, .f32⟩
  | .hbm, ⟨73, _⟩ => ⟨S64x32x32, .f32⟩
  | .local _ .vmem, ⟨0, _⟩ => ⟨S2000x32, .f32⟩
  | .local _ .vmem, ⟨1, _⟩ => ⟨S2000x32, .f32⟩
  | .local _ .vmem, ⟨2, _⟩ => ⟨S2000x1, .i32⟩
  | .local _ .vmem, ⟨3, _⟩ => ⟨S2000x1, .i32⟩
  | .local _ .vmem, ⟨4, _⟩ => ⟨S1x32, .f32⟩
  | .local _ .vmem, ⟨5, _⟩ => ⟨S64x32x32, .f32⟩
  | .local _ .vmem, ⟨6, _⟩ => ⟨S2000x32, .f32⟩
  | .local _ .vmem, ⟨7, _⟩ => ⟨S2000x32, .f32⟩
  | .local _ .vmem, ⟨8, _⟩ => ⟨S2000x1, .i32⟩
  | .local _ .vmem, ⟨9, _⟩ => ⟨S2000x1, .i32⟩
  | .local _ .vmem, ⟨10, _⟩ => ⟨S1x32, .f32⟩
  | .local _ .vmem, ⟨11, _⟩ => ⟨S64x32x32, .f32⟩
  | .local _ .vmem, ⟨12, _⟩ => ⟨S2000x32, .f32⟩
  | .local _ .vmem, ⟨13, _⟩ => ⟨S2000x32, .f32⟩
  | .local _ .vmem, ⟨14, _⟩ => ⟨S2000x1, .i32⟩
  | .local _ .vmem, ⟨15, _⟩ => ⟨S2000x1, .i32⟩
  | .local _ .vmem, ⟨16, _⟩ => ⟨S1x32, .f32⟩
  | .local _ .vmem, ⟨17, _⟩ => ⟨S64x32x32, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  shapeCasts_S50000_S50000x1 : S50000.ShapeCasts S50000x1
  shapeCasts_S32_S1x32 : S32.ShapeCasts S1x32
  inb_S64x32x32_S64x32x32_0_0_0 : ∀ a, (![0, 0, 0] : Fin 3 → Nat) a + S64x32x32.size a ≤ S64x32x32.size a
  h_S64x32x32 : 0 < S64x32x32.numel
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  inb_S1x32_S1x32_0_0 : ∀ a, (![0, 0] : Fin 2 → Nat) a + S1x32.size a ≤ S1x32.size a
  h_S1x32 : 0 < S1x32.numel
  shapeCasts_S1x32_S32 : S1x32.ShapeCasts S32
  shapeCasts_S32_S1x32x1 : S32.ShapeCasts S1x32x1
  shapeCasts_S2000x32_S2000x1x32 : S2000x32.ShapeCasts S2000x1x32
  broadcasts_S1x32x1_S2000x32x32 : S1x32x1.Broadcasts S2000x32x32
  broadcasts_S2000x1x32_S2000x32x32 : S2000x1x32.Broadcasts S2000x32x32
  shapeCasts_S2000x32x32_S2000x1024 : S2000x32x32.ShapeCasts S2000x1024
  bitsLt_bf16_f32 : FTy.bits .bf16 < FTy.bits .f32
  iota_S64x2000_d0_w32 : S64x2000.Iotas .tc 32 [0]
  shapeCasts_S2000_S1x2000 : S2000.ShapeCasts S1x2000
  broadcasts_S1x2000_S64x2000 : S1x2000.Broadcasts S64x2000
  natLt_1_32 : 1 < 32
  shapeCasts_S64x32x32_S64x32x32 : S64x32x32.ShapeCasts S64x32x32
  shapeCasts_S64x1024_S64x32x32 : S64x1024.ShapeCasts S64x32x32
  bcast_S_S2x150000 : S_.BroadcastsInDim S2x150000 (![] : Fin 0 → Fin S2x150000.rank)
  bcast_S2x150000_S2x150000x1_0_1 : S2x150000.BroadcastsInDim S2x150000x1 (![0, 1] : Fin 2 → Fin S2x150000x1.rank)
  reducesTo_S2x150000x32_S150000x32_d0 : S2x150000x32.ReducesTo [0] S150000x32
  h_S_ : 0 < S_.numel
  bcast_S150000_S150000x1_0 : S150000.BroadcastsInDim S150000x1 (![0] : Fin 1 → Fin S150000x1.rank)
  bcast_S150000x1_S150000x32_0_1 : S150000x1.BroadcastsInDim S150000x32 (![0, 1] : Fin 2 → Fin S150000x32.rank)
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  shapeCasts_S150000_S150000x1 : S150000.ShapeCasts S150000x1
  bcast_S_S3x100000 : S_.BroadcastsInDim S3x100000 (![] : Fin 0 → Fin S3x100000.rank)
  bcast_S3x100000_S3x100000x1_0_1 : S3x100000.BroadcastsInDim S3x100000x1 (![0, 1] : Fin 2 → Fin S3x100000x1.rank)
  reducesTo_S3x100000x32_S100000x32_d0 : S3x100000x32.ReducesTo [0] S100000x32
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S3x100000_S1x100000_0_0 : S3x100000.Slices ![0, 0] S1x100000
  shapeCasts_S1x100000_S100000 : S1x100000.ShapeCasts S100000
  bcast_S_S100000 : S_.BroadcastsInDim S100000 (![] : Fin 0 → Fin S100000.rank)
  shapeCasts_S100000_S100000x1 : S100000.ShapeCasts S100000x1
  dot_S50000x3_S3x32_S50000x32_1_0_0_1_n_n_wf : DotDims.WF S50000x3 S3x32 S50000x32 [1] [0] [0] [1] [] []
  dot_S64x2000_S2000x1024_S64x1024_1_0_0_1_n_n_wf : DotDims.WF S64x2000 S2000x1024 S64x1024 [1] [0] [0] [1] [] []
  gather_S50000x32_S2x150000x1_S2x150000x32_2_0_n_n_0_2_132_wf : GatherDims.WF S50000x32 S2x150000x1 S2x150000x32 [2] [0] [] [0] [] 2 ![1, 32]
  gather_S50000_S150000x1_S150000_n_0_n_n_0_1_1_wf : GatherDims.WF S50000 S150000x1 S150000 [] [0] [] [0] [] 1 ![1]
  gather_S50000x32_S3x100000x1_S3x100000x32_2_0_n_n_0_2_132_wf : GatherDims.WF S50000x32 S3x100000x1 S3x100000x32 [2] [0] [] [0] [] 2 ![1, 32]
  gather_S50000_S100000x1_S100000_n_0_n_n_0_1_1_wf : GatherDims.WF S50000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .i32 = 32 ∨ (Rect.block (s := S50000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32x32.size a ≤ S64x32x32.size a
  hwx0_3 : ∀ i : grid0.Coords, EltTy.bits .f32 = 32 ∨ (Rect.block (s := S64x32x32) S64x32x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S150000x32.size a
  hwx1_0 : ∀ i : grid1.Coords, EltTy.bits .f32 = 32 ∨ (Rect.block (s := S150000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S150000x1.size a
  hwx1_1 : ∀ i : grid1.Coords, EltTy.bits .i32 = 32 ∨ (Rect.block (s := S150000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32x32.size a ≤ S64x32x32.size a
  hwx1_3 : ∀ i : grid1.Coords, EltTy.bits .f32 = 32 ∨ (Rect.block (s := S64x32x32) S64x32x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .i32 = 32 ∨ (Rect.block (s := S100000x1) S2000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32x32.size a ≤ S64x32x32.size a
  hwx2_3 : ∀ i : grid2.Coords, EltTy.bits .f32 = 32 ∨ (Rect.block (s := S64x32x32) S64x32x32.size (cc2_transform_3 i) (hinb2_3 i)).WholeWords (EltTy.packing .f32)

variable [Facts₀]

def dot_S50000x3_S3x32_S50000x32_1_0_0_1_n_n : DotDims S50000x3 S3x32 S50000x32 where
  lhsContracting := [1]
  rhsContracting := [0]
  lhsNonContracting := [0]
  rhsNonContracting := [1]
  lhsBatch := []
  rhsBatch := []
  wf := dot_S50000x3_S3x32_S50000x32_1_0_0_1_n_n_wf
def dot_S64x2000_S2000x1024_S64x1024_1_0_0_1_n_n : DotDims S64x2000 S2000x1024 S64x1024 where
  lhsContracting := [1]
  rhsContracting := [0]
  lhsNonContracting := [0]
  rhsNonContracting := [1]
  lhsBatch := []
  rhsBatch := []
  wf := dot_S64x2000_S2000x1024_S64x1024_1_0_0_1_n_n_wf
def gather_S50000x32_S2x150000x1_S2x150000x32_2_0_n_n_0_2_132 : GatherDims S50000x32 S2x150000x1 S2x150000x32 where
  offsetDims := [2]
  collapsedSliceDims := [0]
  operandBatchingDims := []
  startIndicesBatchingDims := []
  startIndexMap := [0]
  indexVectorDim := 2
  sliceSizes := ![1, 32]
  wf := gather_S50000x32_S2x150000x1_S2x150000x32_2_0_n_n_0_2_132_wf
def gather_S50000_S150000x1_S150000_n_0_n_n_0_1_1 : GatherDims S50000 S150000x1 S150000 where
  offsetDims := []
  collapsedSliceDims := [0]
  operandBatchingDims := []
  startIndicesBatchingDims := []
  startIndexMap := [0]
  indexVectorDim := 1
  sliceSizes := ![1]
  wf := gather_S50000_S150000x1_S150000_n_0_n_n_0_1_1_wf
def gather_S50000x32_S3x100000x1_S3x100000x32_2_0_n_n_0_2_132 : GatherDims S50000x32 S3x100000x1 S3x100000x32 where
  offsetDims := [2]
  collapsedSliceDims := [0]
  operandBatchingDims := []
  startIndicesBatchingDims := []
  startIndexMap := [0]
  indexVectorDim := 2
  sliceSizes := ![1, 32]
  wf := gather_S50000x32_S3x100000x1_S3x100000x32_2_0_n_n_0_2_132_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf

abbrev win0_0 : Pipeline.Window sig grid0 :=
  Pipeline.Window.ofSpec (Memref.whole main_v3) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x32x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x32x32.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S64x32x32.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x3 : Shape := ⟨2, ![50000, 3]⟩
abbrev S50000 : Shape := ⟨1, ![50000]⟩
abbrev S150000 : Shape := ⟨1, ![150000]⟩
abbrev S100000 : Shape := ⟨1, ![100000]⟩
abbrev S2x150000 : Shape := ⟨2, ![2, 150000]⟩
abbrev S3x100000 : Shape := ⟨2, ![3, 100000]⟩
abbrev S3x32 : Shape := ⟨2, ![3, 32]⟩
abbrev S32 : Shape := ⟨1, ![32]⟩
abbrev S50000x1 : Shape := ⟨2, ![50000, 1]⟩
abbrev S50000x32 : Shape := ⟨2, ![50000, 32]⟩
abbrev S1x32x1 : Shape := ⟨3, ![1, 32, 1]⟩
abbrev S50000x1x32 : Shape := ⟨3, ![50000, 1, 32]⟩
abbrev S50000x32x32 : Shape := ⟨3, ![50000, 32, 32]⟩
abbrev S_ : Shape := ⟨0, ![]⟩
abbrev S64x32x32 : Shape := ⟨3, ![64, 32, 32]⟩
abbrev S2x150000x1 : Shape := ⟨3, ![2, 150000, 1]⟩
abbrev S2x150000x32 : Shape := ⟨3, ![2, 150000, 32]⟩
abbrev S150000x32 : Shape := ⟨2, ![150000, 32]⟩
abbrev S150000x1 : Shape := ⟨2, ![150000, 1]⟩
abbrev S1x150000 : Shape := ⟨2, ![1, 150000]⟩
abbrev S150000x1x32 : Shape := ⟨3, ![150000, 1, 32]⟩
abbrev S150000x32x32 : Shape := ⟨3, ![150000, 32, 32]⟩
abbrev S3x100000x1 : Shape := ⟨3, ![3, 100000, 1]⟩
abbrev S3x100000x32 : Shape := ⟨3, ![3, 100000, 32]⟩
abbrev S100000x32 : Shape := ⟨2, ![100000, 32]⟩
abbrev S100000x1 : Shape := ⟨2, ![100000, 1]⟩
abbrev S1x100000 : Shape := ⟨2, ![1, 100000]⟩
abbrev S100000x1x32 : Shape := ⟨3, ![100000, 1, 32]⟩
abbrev S100000x32x32 : Shape := ⟨3, ![100000, 32, 32]⟩

abbrev nBuf : Space → Nat
  | .hbm => 125
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000, .f32⟩
  | .hbm, ⟨2, _⟩ => ⟨S150000, .f32⟩
  | .hbm, ⟨3, _⟩ => ⟨S100000, .f32⟩
  | .hbm, ⟨4, _⟩ => ⟨S50000, .i32⟩
  | .hbm, ⟨5, _⟩ => ⟨S2x150000, .i32⟩
  | .hbm, ⟨6, _⟩ => ⟨S3x100000, .i32⟩
  | .hbm, ⟨7, _⟩ => ⟨S3x32, .f32⟩
  | .hbm, ⟨8, _⟩ => ⟨S32, .f32⟩
  | .hbm, ⟨9, _⟩ => ⟨S50000x1, .f32⟩
  | .hbm, ⟨10, _⟩ => ⟨S50000x3, .f32⟩
  | .hbm, ⟨11, _⟩ => ⟨S50000x3, .f32⟩
  | .hbm, ⟨12, _⟩ => ⟨S50000x32, .f32⟩
  | .hbm, ⟨13, _⟩ => ⟨S1x32x1, .f32⟩
  | .hbm, ⟨14, _⟩ => ⟨S50000x1x32, .f32⟩
  | .hbm, ⟨15, _⟩ => ⟨S50000x32x32, .f32⟩
  | .hbm, ⟨16, _⟩ => ⟨S50000x32x32, .f32⟩
  | .hbm, ⟨17, _⟩ => ⟨S50000x32x32, .f32⟩
  | .hbm, ⟨18, _⟩ => ⟨S_, .f32⟩
  | .hbm, ⟨19, _⟩ => ⟨S50000x32x32, .f32⟩
  | .hbm, ⟨20, _⟩ => ⟨S50000x32x32, .f32⟩
  | .hbm, ⟨21, _⟩ => ⟨S50000x32x32, .f32⟩
  | .hbm, ⟨22, _⟩ => ⟨S50000x32x32, .f32⟩
  | .hbm, ⟨23, _⟩ => ⟨S_, .f32⟩
  | .hbm, ⟨24, _⟩ => ⟨S50000x32x32, .f32⟩
  | .hbm, ⟨25, _⟩ => ⟨S50000x32x32, .f32⟩
  | .hbm, ⟨26, _⟩ => ⟨S_, .f32⟩
  | .hbm, ⟨27, _⟩ => ⟨S50000x32x32, .f32⟩
  | .hbm, ⟨28, _⟩ => ⟨S50000x32x32, .f32⟩
  | .hbm, ⟨29, _⟩ => ⟨S_, .f32⟩
  | .hbm, ⟨30, _⟩ => ⟨S64x32x32, .f32⟩
  | .hbm, ⟨31, _⟩ => ⟨S50000x1, .i32⟩
  | .hbm, ⟨32, _⟩ => ⟨S64x32x32, .f32⟩
  | .hbm, ⟨33, _⟩ => ⟨S_, .i32⟩
  | .hbm, ⟨34, _⟩ => ⟨S2x150000, .i32⟩
  | .hbm, ⟨35, _⟩ => ⟨S2x150000, .i1⟩
  | .hbm, ⟨36, _⟩ => ⟨S_, .i32⟩
  | .hbm, ⟨37, _⟩ => ⟨S2x150000, .i32⟩
  | .hbm, ⟨38, _⟩ => ⟨S2x150000, .i32⟩
  | .hbm, ⟨39, _⟩ => ⟨S2x150000, .i32⟩
  | .hbm, ⟨40, _⟩ => ⟨S2x150000x1, .i32⟩
  | .hbm, ⟨41, _⟩ => ⟨S2x150000x32, .f32⟩
  | .hbm, ⟨42, _⟩ => ⟨S_, .f32⟩
  | .hbm, ⟨43, _⟩ => ⟨S150000x32, .f32⟩
  | .hbm, ⟨44, _⟩ => ⟨S150000x1, .f32⟩
  | .hbm, ⟨45, _⟩ => ⟨S150000x32, .f32⟩
  | .hbm, ⟨46, _⟩ => ⟨S150000x32, .f32⟩
  | .hbm, ⟨47, _⟩ => ⟨S1x150000, .i32⟩
  | .hbm, ⟨48, _⟩ => ⟨S150000, .i32⟩
  | .hbm, ⟨49, _⟩ => ⟨S_, .i32⟩
  | .hbm, ⟨50, _⟩ => ⟨S150000, .i32⟩
  | .hbm, ⟨51, _⟩ => ⟨S150000, .i1⟩
  | .hbm, ⟨52, _⟩ => ⟨S_, .i32⟩
  | .hbm, ⟨53, _⟩ => ⟨S150000, .i32⟩
  | .hbm, ⟨54, _⟩ => ⟨S150000, .i32⟩
  | .hbm, ⟨55, _⟩ => ⟨S150000, .i32⟩
  | .hbm, ⟨56, _⟩ => ⟨S150000x1, .i32⟩
  | .hbm, ⟨57, _⟩ => ⟨S150000, .i32⟩
  | .hbm, ⟨58, _⟩ => ⟨S1x32x1, .f32⟩
  | .hbm, ⟨59, _⟩ => ⟨S150000x1x32, .f32⟩
  | .hbm, ⟨60, _⟩ => ⟨S150000x32x32, .f32⟩
  | .hbm, ⟨61, _⟩ => ⟨S150000x32x32, .f32⟩
  | .hbm, ⟨62, _⟩ => ⟨S150000x32x32, .f32⟩
  | .hbm, ⟨63, _⟩ => ⟨S_, .f32⟩
  | .hbm, ⟨64, _⟩ => ⟨S150000x32x32, .f32⟩
  | .hbm, ⟨65, _⟩ => ⟨S150000x32x32, .f32⟩
  | .hbm, ⟨66, _⟩ => ⟨S150000x32x32, .f32⟩
  | .hbm, ⟨67, _⟩ => ⟨S150000x32x32, .f32⟩
  | .hbm, ⟨68, _⟩ => ⟨S_, .f32⟩
  | .hbm, ⟨69, _⟩ => ⟨S150000x32x32, .f32⟩
  | .hbm, ⟨70, _⟩ => ⟨S150000x32x32, .f32⟩
  | .hbm, ⟨71, _⟩ => ⟨S_, .f32⟩
  | .hbm, ⟨72, _⟩ => ⟨S150000x32x32, .f32⟩
  | .hbm, ⟨73, _⟩ => ⟨S150000x32x32, .f32⟩
  | .hbm, ⟨74, _⟩ => ⟨S_, .f32⟩
  | .hbm, ⟨75, _⟩ => ⟨S64x32x32, .f32⟩
  | .hbm, ⟨76, _⟩ => ⟨S150000x1, .i32⟩
  | .hbm, ⟨77, _⟩ => ⟨S64x32x32, .f32⟩
  | .hbm, ⟨78, _⟩ => ⟨S64x32x32, .f32⟩
  | .hbm, ⟨79, _⟩ => ⟨S_, .i32⟩
  | .hbm, ⟨80, _⟩ => ⟨S3x100000, .i32⟩
  | .hbm, ⟨81, _⟩ => ⟨S3x100000, .i1⟩
  | .hbm, ⟨82, _⟩ => ⟨S_, .i32⟩
  | .hbm, ⟨83, _⟩ => ⟨S3x100000, .i32⟩
  | .hbm, ⟨84, _⟩ => ⟨S3x100000, .i32⟩
  | .hbm, ⟨85, _⟩ => ⟨S3x100000, .i32⟩
  | .hbm, ⟨86, _⟩ => ⟨S3x100000x1, .i32⟩
  | .hbm, ⟨87, _⟩ => ⟨S3x100000x32, .f32⟩
  | .hbm, ⟨88, _⟩ => ⟨S_, .f32⟩
  | .hbm, ⟨89, _⟩ => ⟨S100000x32, .f32⟩
  | .hbm, ⟨90, _⟩ => ⟨S100000x1, .f32⟩
  | .hbm, ⟨91, _⟩ => ⟨S100000x32, .f32⟩
  | .hbm, ⟨92, _⟩ => ⟨S100000x32, .f32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000, .i32⟩
  | .hbm, ⟨104, _⟩ => ⟨S1x32x1, .f32⟩
  | .hbm, ⟨105, _⟩ => ⟨S100000x1x32, .f32⟩
  | .hbm, ⟨106, _⟩ => ⟨S100000x32x32, .f32⟩
  | .hbm, ⟨107, _⟩ => ⟨S100000x32x32, .f32⟩
  | .hbm, ⟨108, _⟩ => ⟨S100000x32x32, .f32⟩
  | .hbm, ⟨109, _⟩ => ⟨S_, .f32⟩
  | .hbm, ⟨110, _⟩ => ⟨S100000x32x32, .f32⟩
  | .hbm, ⟨111, _⟩ => ⟨S100000x32x32, .f32⟩
  | .hbm, ⟨112, _⟩ => ⟨S100000x32x32, .f32⟩
  | .hbm, ⟨113, _⟩ => ⟨S100000x32x32, .f32⟩
  | .hbm, ⟨114, _⟩ => ⟨S_, .f32⟩
  | .hbm, ⟨115, _⟩ => ⟨S100000x32x32, .f32⟩
  | .hbm, ⟨116, _⟩ => ⟨S100000x32x32, .f32⟩
  | .hbm, ⟨117, _⟩ => ⟨S_, .f32⟩
  | .hbm, ⟨118, _⟩ => ⟨S100000x32x32, .f32⟩
  | .hbm, ⟨119, _⟩ => ⟨S100000x32x32, .f32⟩
  | .hbm, ⟨120, _⟩ => ⟨S_, .f32⟩
  | .hbm, ⟨121, _⟩ => ⟨S64x32x32, .f32⟩
  | .hbm, ⟨122, _⟩ => ⟨S100000x1, .i32⟩
  | .hbm, ⟨123, _⟩ => ⟨S64x32x32, .f32⟩
  | .hbm, ⟨124, _⟩ => ⟨S64x32x32, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_cst_19 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S32_S1x32x1_1 : S32.BroadcastsInDim S1x32x1 (![1] : Fin 1 → Fin S1x32x1.rank)
  bcast_S50000x32_S50000x1x32_0_2 : S50000x32.BroadcastsInDim S50000x1x32 (![0, 2] : Fin 2 → Fin S50000x1x32.rank)
  bcast_S1x32x1_S50000x32x32_0_1_2 : S1x32x1.BroadcastsInDim S50000x32x32 (![0, 1, 2] : Fin 3 → Fin S50000x32x32.rank)
  bcast_S50000x1x32_S50000x32x32_0_1_2 : S50000x1x32.BroadcastsInDim S50000x32x32 (![0, 1, 2] : Fin 3 → Fin S50000x32x32.rank)
  bcast_S_S50000x32x32 : S_.BroadcastsInDim S50000x32x32 (![] : Fin 0 → Fin S50000x32x32.rank)
  bcast_S_S64x32x32 : S_.BroadcastsInDim S64x32x32 (![] : Fin 0 → Fin S64x32x32.rank)
  bcast_S_S2x150000 : S_.BroadcastsInDim S2x150000 (![] : Fin 0 → Fin S2x150000.rank)
  bcast_S2x150000_S2x150000x1_0_1 : S2x150000.BroadcastsInDim S2x150000x1 (![0, 1] : Fin 2 → Fin S2x150000x1.rank)
  reducesTo_S2x150000x32_S150000x32_d0 : S2x150000x32.ReducesTo [0] S150000x32
  h_S_ : 0 < S_.numel
  bcast_S150000_S150000x1_0 : S150000.BroadcastsInDim S150000x1 (![0] : Fin 1 → Fin S150000x1.rank)
  bcast_S150000x1_S150000x32_0_1 : S150000x1.BroadcastsInDim S150000x32 (![0, 1] : Fin 2 → Fin S150000x32.rank)
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  bcast_S150000x32_S150000x1x32_0_2 : S150000x32.BroadcastsInDim S150000x1x32 (![0, 2] : Fin 2 → Fin S150000x1x32.rank)
  bcast_S1x32x1_S150000x32x32_0_1_2 : S1x32x1.BroadcastsInDim S150000x32x32 (![0, 1, 2] : Fin 3 → Fin S150000x32x32.rank)
  bcast_S150000x1x32_S150000x32x32_0_1_2 : S150000x1x32.BroadcastsInDim S150000x32x32 (![0, 1, 2] : Fin 3 → Fin S150000x32x32.rank)
  bcast_S_S150000x32x32 : S_.BroadcastsInDim S150000x32x32 (![] : Fin 0 → Fin S150000x32x32.rank)
  bcast_S_S3x100000 : S_.BroadcastsInDim S3x100000 (![] : Fin 0 → Fin S3x100000.rank)
  bcast_S3x100000_S3x100000x1_0_1 : S3x100000.BroadcastsInDim S3x100000x1 (![0, 1] : Fin 2 → Fin S3x100000x1.rank)
  reducesTo_S3x100000x32_S100000x32_d0 : S3x100000x32.ReducesTo [0] S100000x32
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S3x100000_S1x100000_0_0 : S3x100000.Slices ![0, 0] S1x100000
  shapeCasts_S1x100000_S100000 : S1x100000.ShapeCasts S100000
  bcast_S_S100000 : S_.BroadcastsInDim S100000 (![] : Fin 0 → Fin S100000.rank)
  bcast_S100000x32_S100000x1x32_0_2 : S100000x32.BroadcastsInDim S100000x1x32 (![0, 2] : Fin 2 → Fin S100000x1x32.rank)
  bcast_S1x32x1_S100000x32x32_0_1_2 : S1x32x1.BroadcastsInDim S100000x32x32 (![0, 1, 2] : Fin 3 → Fin S100000x32x32.rank)
  bcast_S100000x1x32_S100000x32x32_0_1_2 : S100000x1x32.BroadcastsInDim S100000x32x32 (![0, 1, 2] : Fin 3 → Fin S100000x32x32.rank)
  bcast_S_S100000x32x32 : S_.BroadcastsInDim S100000x32x32 (![] : Fin 0 → Fin S100000x32x32.rank)
  dot_S50000x3_S3x32_S50000x32_1_0_0_1_n_n_wf : DotDims.WF S50000x3 S3x32 S50000x32 [1] [0] [0] [1] [] []
  scatter_S64x32x32_S50000x1_S50000x32x32_12_0_0_1_wf : ScatterDims.WF S64x32x32 S50000x1 S50000x32x32 [1, 2] [0] [0] 1
  gather_S50000x32_S2x150000x1_S2x150000x32_2_0_n_n_0_2_132_wf : GatherDims.WF S50000x32 S2x150000x1 S2x150000x32 [2] [0] [] [0] [] 2 ![1, 32]
  gather_S50000_S150000x1_S150000_n_0_n_n_0_1_1_wf : GatherDims.WF S50000 S150000x1 S150000 [] [0] [] [0] [] 1 ![1]
  scatter_S64x32x32_S150000x1_S150000x32x32_12_0_0_1_wf : ScatterDims.WF S64x32x32 S150000x1 S150000x32x32 [1, 2] [0] [0] 1
  gather_S50000x32_S3x100000x1_S3x100000x32_2_0_n_n_0_2_132_wf : GatherDims.WF S50000x32 S3x100000x1 S3x100000x32 [2] [0] [] [0] [] 2 ![1, 32]
  gather_S50000_S100000x1_S100000_n_0_n_n_0_1_1_wf : GatherDims.WF S50000 S100000x1 S100000 [] [0] [] [0] [] 1 ![1]
  scatter_S64x32x32_S100000x1_S100000x32x32_12_0_0_1_wf : ScatterDims.WF S64x32x32 S100000x1 S100000x32x32 [1, 2] [0] [0] 1

variable [Facts₀]

def dot_S50000x3_S3x32_S50000x32_1_0_0_1_n_n : DotDims S50000x3 S3x32 S50000x32 where
  lhsContracting := [1]
  rhsContracting := [0]
  lhsNonContracting := [0]
  rhsNonContracting := [1]
  lhsBatch := []
  rhsBatch := []
  wf := dot_S50000x3_S3x32_S50000x32_1_0_0_1_n_n_wf
def scatter_S64x32x32_S50000x1_S50000x32x32_12_0_0_1 : ScatterDims S64x32x32 S50000x1 S50000x32x32 where
  updateWindowDims := [1, 2]
  insertedWindowDims := [0]
  scatterDimsToOperandDims := [0]
  indexVectorDim := 1
  wf := scatter_S64x32x32_S50000x1_S50000x32x32_12_0_0_1_wf
def gather_S50000x32_S2x150000x1_S2x150000x32_2_0_n_n_0_2_132 : GatherDims S50000x32 S2x150000x1 S2x150000x32 where
  offsetDims := [2]
  collapsedSliceDims := [0]
  operandBatchingDims := []
  startIndicesBatchingDims := []
  startIndexMap := [0]
  indexVectorDim := 2
  sliceSizes := ![1, 32]
  wf := gather_S50000x32_S2x150000x1_S2x150000x32_2_0_n_n_0_2_132_wf
def gather_S50000_S150000x1_S150000_n_0_n_n_0_1_1 : GatherDims S50000 S150000x1 S150000 where
  offsetDims := []
  collapsedSliceDims := [0]
  operandBatchingDims := []
  startIndicesBatchingDims := []
  startIndexMap := [0]
  indexVectorDim := 1
  sliceSizes := ![1]
  wf := gather_S50000_S150000x1_S150000_n_0_n_n_0_1_1_wf
def scatter_S64x32x32_S150000x1_S150000x32x32_12_0_0_1 : ScatterDims S64x32x32 S150000x1 S150000x32x32 where
  updateWindowDims := [1, 2]
  insertedWindowDims := [0]
  scatterDimsToOperandDims := [0]
  indexVectorDim := 1
  wf := scatter_S64x32x32_S150000x1_S150000x32x32_12_0_0_1_wf
def gather_S50000x32_S3x100000x1_S3x100000x32_2_0_n_n_0_2_132 : GatherDims S50000x32 S3x100000x1 S3x100000x32 where
  offsetDims := [2]
  collapsedSliceDims := [0]
  operandBatchingDims := []
  startIndicesBatchingDims := []
  startIndexMap := [0]
  indexVectorDim := 2
  sliceSizes := ![1, 32]
  wf := gather_S50000x32_S3x100000x1_S3x100000x32_2_0_n_n_0_2_132_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def scatter_S64x32x32_S100000x1_S100000x32x32_12_0_0_1 : ScatterDims S64x32x32 S100000x1 S100000x32x32 where
  updateWindowDims := [1, 2]
  insertedWindowDims := [0]
  scatterDimsToOperandDims := [0]
  indexVectorDim := 1
  wf := scatter_S64x32x32_S100000x1_S100000x32x32_12_0_0_1_wf

class Facts : Prop extends Facts₀ where

variable [Facts]
-- ==== Proof.Spec.lean ====
/-
  The function both programs compute, one segment at a time.

  A simplex m with height h(m, t) along direction t contributes, at threshold lin(s), the sigmoid bump
  sigma(500 * (lin(s) - h(m, t))) to the graph idx(m) names. Summed over all simplices of one kind this is a
  [64 x 32 x 32] array: entry (b, s, t) is the sum of the bumps of the simplices whose graph word is b. A word that names
  no graph (negative, or 64 and above) contributes to no entry. The whole result is the node array minus the edge array
  plus the face array.
-/
import Idealize.ShloMosaic.PureOps.Ideal
import Mathlib.Algebra.BigOperators.Fin

noncomputable section

namespace Cert.Ecc

open Idealize.ShloMosaic
open scoped BigOperators

/-- The sigmoid bump of one height against one threshold: the logistic function at 500 times their difference. -/
def bump (lin h : EReal) : EReal := Ideal.logistic (Ideal.ofBits .f32 0x43FA0000#32 * (lin - h))

/-- Entry (b, s, t) of one kind's segment sum over M simplices: the bumps of the simplices whose graph word is b,
    each weighted by 1, the others by 0. -/
def segEcc {M : ℕ} (h : Fin M → Fin 32 → EReal) (idx : Fin M → BitVec 32) (lin : Fin 32 → EReal)
    (b : Fin 64) (s t : Fin 32) : EReal :=
  ∑ m : Fin M, (if idx m = BitVec.ofNat 32 b.val then (1 : EReal) else 0) * bump (lin s) (h m t)

end Cert.Ecc

end
-- ==== Proof.Payload.lean ====
/-
  One grid point's update of the accumulator, read at one entry: entry (b, s, t) of the new block is the old entry plus
  the sum over the point's 2000 simplices of the one-hot weight of graph b times the simplex's bump at (s, t).
-/
import proofs.«429715_j15942918603129_1_alg».proof.Proof.Spec
import proofs.«429715_j15942918603129_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## Layout operations of the update, read at coordinates -/

section Layout
variable {α : Type}

/-- A column `[a, 1]` read as the vector `[a]`: at `k`, the operand at `(k, 0)`. -/
theorem shapeCast_a1_a_apply {a : ℕ} (x : (⟨2, ![a, 1]⟩ : Shape).Idx → α)
    (h : (⟨2, ![a, 1]⟩ : Shape).ShapeCasts ⟨1, ![a]⟩) (k : Fin a) :
    shapeCast ⟨1, ![a]⟩ x h (ix1 k) = x (ix2 k (0 : Fin 1)) :=
  shapeCast_apply x h _ _ (by
    rw [Shape.rowMajor_val_two, Shape.rowMajor_val_one]
    show k.val * 1 + 0 = k.val
    omega)

/-- A vector `[a]` read as `[1, a, 1]`: at `(u, s, w)`, the operand at `s`. -/
theorem shapeCast_a_1a1_apply {a : ℕ} (x : (⟨1, ![a]⟩ : Shape).Idx → α)
    (h : (⟨1, ![a]⟩ : Shape).ShapeCasts ⟨3, ![1, a, 1]⟩) (u : Fin 1) (s : Fin a) (w : Fin 1) :
    shapeCast ⟨3, ![1, a, 1]⟩ x h (ix3 u s w) = x (ix1 s) :=
  shapeCast_apply x h _ _ (by
    have hu : u.val = 0 := by omega
    have hw : w.val = 0 := by omega
    rw [Shape.rowMajor_val_three, Shape.rowMajor_val_one]
    show s.val = (u.val * a + s.val) * 1 + w.val
    rw [hu, hw, Nat.zero_mul, Nat.zero_add, Nat.mul_one, Nat.add_zero])

/-- `[1, a, 1]` broadcast to `[n, a, c]`: at `(k, s, t)`, the operand at `(0, s, 0)`. -/
theorem broadcastTo_1a1_nac_apply {n a c : ℕ} (v : (⟨3, ![1, a, 1]⟩ : Shape).Idx → α)
    (h : (⟨3, ![1, a, 1]⟩ : Shape).Broadcasts ⟨3, ![n, a, c]⟩) (k : Fin n) (s : Fin a) (t : Fin c) :
    broadcastTo ⟨3, ![n, a, c]⟩ v h (ix3 k s t) = v (ix3 (0 : Fin 1) s (0 : Fin 1)) := by
  refine broadcastTo_apply v h (ix3 k s t) (ix3 (0 : Fin 1) s (0 : Fin 1)) fun ax => ?_
  match ax with
  | ⟨0, _⟩ => rfl
  | ⟨1, _⟩ =>
    show s.val = if a = 1 then 0 else s.val
    split
    · have := s.isLt; omega
    · rfl
  | ⟨2, _⟩ => rfl

/-- A matrix `[n, c]` read as `[n, 1, c]`: at `(k, u, t)`, the operand at `(k, t)`. -/
theorem shapeCast_nc_n1c_apply {n c : ℕ} (x : (⟨2, ![n, c]⟩ : Shape).Idx → α)
    (h : (⟨2, ![n, c]⟩ : Shape).ShapeCasts ⟨3, ![n, 1, c]⟩) (k : Fin n) (u : Fin 1) (t : Fin c) :
    shapeCast ⟨3, ![n, 1, c]⟩ x h (ix3 k u t) = x (ix2 k t) :=
  shapeCast_apply x h _ _ (by
    have hu : u.val = 0 := by omega
    rw [Shape.rowMajor_val_three, Shape.rowMajor_val_two]
    show k.val * c + t.val = (k.val * 1 + u.val) * c + t.val
    rw [hu, Nat.mul_one, Nat.add_zero])

/-- `[n, 1, c]` broadcast to `[n, a, c]`: at `(k, s, t)`, the operand at `(k, 0, t)`. -/
theorem broadcastTo_n1c_nac_apply {n a c : ℕ} (v : (⟨3, ![n, 1, c]⟩ : Shape).Idx → α)
    (h : (⟨3, ![n, 1, c]⟩ : Shape).Broadcasts ⟨3, ![n, a, c]⟩) (k : Fin n) (s : Fin a) (t : Fin c) :
    broadcastTo ⟨3, ![n, a, c]⟩ v h (ix3 k s t) = v (ix3 k (0 : Fin 1) t) := by
  refine broadcastTo_apply v h (ix3 k s t) (ix3 k (0 : Fin 1) t) fun ax => ?_
  match ax with
  | ⟨0, _⟩ =>
    show k.val = if n = 1 then 0 else k.val
    split
    · have := k.isLt; omega
    · rfl
  | ⟨1, _⟩ => rfl
  | ⟨2, _⟩ =>
    show t.val = if c = 1 then 0 else t.val
    split
    · have := t.isLt; omega
    · rfl

/-- The column of entry `(s, t)` of a `32 × 32` tile laid out along a row of `1024`. -/
abbrev col (s t : Fin 32) : Fin 1024 := ⟨32 * s.val + t.val, by have := s.isLt; have := t.isLt; omega⟩

/-- `[n, 32, 32]` flattened to `[n, 1024]`: at `(k, 32 s + t)`, the operand at `(k, s, t)`. -/
theorem shapeCast_flatten_apply {n : ℕ} (x : (⟨3, ![n, 32, 32]⟩ : Shape).Idx → α)
    (h : (⟨3, ![n, 32, 32]⟩ : Shape).ShapeCasts ⟨2, ![n, 1024]⟩) (k : Fin n) (s t : Fin 32) :
    shapeCast ⟨2, ![n, 1024]⟩ x h (ix2 k (col s t)) = x (ix3 k s t) :=
  shapeCast_apply x h _ _ (by
    rw [Shape.rowMajor_val_three, Shape.rowMajor_val_two]
    show (k.val * 32 + s.val) * 32 + t.val = k.val * 1024 + (32 * s.val + t.val)
    omega)

/-- `[n, 1024]` split to `[n, 32, 32]`: at `(k, s, t)`, the operand at `(k, 32 s + t)`. -/
theorem shapeCast_split_apply {n : ℕ} (x : (⟨2, ![n, 1024]⟩ : Shape).Idx → α)
    (h : (⟨2, ![n, 1024]⟩ : Shape).ShapeCasts ⟨3, ![n, 32, 32]⟩) (k : Fin n) (s t : Fin 32) :
    shapeCast ⟨3, ![n, 32, 32]⟩ x h (ix3 k s t) = x (ix2 k (col s t)) :=
  shapeCast_apply x h _ _ (by
    rw [Shape.rowMajor_val_three, Shape.rowMajor_val_two]
    show k.val * 1024 + (32 * s.val + t.val) = (k.val * 32 + s.val) * 32 + t.val
    omega)

end Layout

/-! ## The one-hot factor -/

/-- A comparison word, widened and converted: `1` when the two words are equal and `0` otherwise. -/
theorem onehot_word (a w : BitVec 32) :
    (FloatOps.sitofp (F := Ideal) .f32 ((IntOp.cmpi .eq a w).setWidth 32) : EReal) = if w = a then 1 else 0 := by
  by_cases h : w = a
  · subst h
    rw [if_pos rfl]
    have : IntOp.cmpi .eq w w = 1#1 := by
      simp only [IntOp.cmpi, beq_self_eq_true]; rfl
    rw [this]
    show (((1#1 : BitVec 1).setWidth 32).toInt : ℝ) = (1 : EReal)
    have h1 : ((1#1 : BitVec 1).setWidth 32).toInt = 1 := by decide
    rw [h1, Int.cast_one, EReal.coe_one]
  · rw [if_neg h]
    have : IntOp.cmpi .eq a w = 0#1 := by
      have hne : (a == w) = false := by
        rw [beq_eq_false_iff_ne]; exact fun e => h e.symm
      simp only [IntOp.cmpi, hne]; rfl
    rw [this]
    show (((0#1 : BitVec 1).setWidth 32).toInt : ℝ) = (0 : EReal)
    have h0 : ((0#1 : BitVec 1).setWidth 32).toInt = 0 := by decide
    rw [h0, Int.cast_zero, EReal.coe_zero]

/-- The left operand of the contraction at `(b, k)`: `1` when simplex `k`'s graph word is `b`, else `0`. -/
theorem onehot_apply (x1 : Vec Ideal S2000x1 .i32) (b : Fin 64) (k : Fin 2000) :
    (truncf .bf16 (sitofp .f32 (extui 32 (cmpi .eq (iota .tc S64x2000 32 [0] iota_S64x2000_d0_w32)
        (broadcastTo S64x2000 (shapeCast S1x2000 (shapeCast S2000 x1 shapeCasts_S2000x1_S2000) shapeCasts_S2000_S1x2000)
          broadcasts_S1x2000_S64x2000)) natLt_1_32) : FVec Ideal S64x2000 .f32) bitsLt_bf16_f32 : FVec Ideal S64x2000 .bf16) (ix2 b k)
      = if x1 (ix2 k (0 : Fin 1)) = BitVec.ofNat 32 b.val then (1 : EReal) else 0 := by
  rw [truncf_apply, sitofp_apply, extui_apply]
  show FloatOps.sitofp (F := Ideal) .f32 ((IntOp.cmpi .eq (iota .tc S64x2000 32 [0] iota_S64x2000_d0_w32 (ix2 b k))
      (broadcastTo S64x2000 (shapeCast S1x2000 (shapeCast S2000 x1 shapeCasts_S2000x1_S2000) shapeCasts_S2000_S1x2000)
          broadcasts_S1x2000_S64x2000 (ix2 b k))).setWidth 32) = _
  rw [iota_single_apply, broadcastTo_1b_ab_apply, shapeCast_a_1a_apply, shapeCast_a1_a_apply]
  exact onehot_word _ _

/-! ## The bump factor -/

/-- The right operand of the contraction at `(k, 32 s + t)`: simplex `k`'s bump at threshold `s` along direction `t`. -/
theorem bump_apply (x0 : Vec Ideal S2000x32 .f32) (x2 : Vec Ideal S1x32 .f32) (k : Fin 2000) (s t : Fin 32) :
    (truncf .bf16 (shapeCast S2000x1024
        (logistic (mulf (broadcast S2000x32x32 (FloatOps.ofBits (F := Ideal) .f32 0x43FA0000#32))
          (subf
            (broadcastTo S2000x32x32 (shapeCast S1x32x1 (shapeCast S32 x2 shapeCasts_S1x32_S32) shapeCasts_S32_S1x32x1)
              broadcasts_S1x32x1_S2000x32x32)
            (broadcastTo S2000x32x32
              (shapeCast S2000x1x32 (shapeCast S2000x32 x0 shapeCasts_S2000x32_S2000x32) shapeCasts_S2000x32_S2000x1x32)
              broadcasts_S2000x1x32_S2000x32x32))) : FVec Ideal S2000x32x32 .f32)
        shapeCasts_S2000x32x32_S2000x1024) bitsLt_bf16_f32 : FVec Ideal S2000x1024 .bf16) (ix2 k (col s t))
      = Cert.Ecc.bump (x2 (ix2 (0 : Fin 1) s)) (x0 (ix2 k t)) := by
  rw [truncf_apply, shapeCast_flatten_apply]
  show FloatOps.logistic (F := Ideal) (mulf (broadcast S2000x32x32 (FloatOps.ofBits (F := Ideal) .f32 0x43FA0000#32))
          (subf
            (broadcastTo S2000x32x32 (shapeCast S1x32x1 (shapeCast S32 x2 shapeCasts_S1x32_S32) shapeCasts_S32_S1x32x1)
              broadcasts_S1x32x1_S2000x32x32)
            (broadcastTo S2000x32x32
              (shapeCast S2000x1x32 (shapeCast S2000x32 x0 shapeCasts_S2000x32_S2000x32) shapeCasts_S2000x32_S2000x1x32)
              broadcasts_S2000x1x32_S2000x32x32)) (ix3 k s t)) = _
  rw [mulf_apply, subf_apply, broadcast_apply, broadcastTo_1a1_nac_apply, shapeCast_a_1a1_apply, shapeCast_1a_a_apply,
    broadcastTo_n1c_nac_apply, shapeCast_nc_n1c_apply, shapeCast_self]
  rfl

/-! ## The contraction -/

/-- The left operand's row is the output's row. -/
theorem lhs_axis0 (i : S64x1024.Idx) (q : dot_S64x2000_S2000x1024_S64x1024_1_0_0_1_n_n.contr.Idx) :
    (dot_S64x2000_S2000x1024_S64x1024_1_0_0_1_n_n.lhsIdx i q 0).val = (i 0).val := by
  unfold DotDims.lhsIdx
  rw [dif_neg (show ¬(0 : Fin S64x2000.rank) ∈ dot_S64x2000_S2000x1024_S64x1024_1_0_0_1_n_n.lhsBatch by decide), dif_pos (show (0 : Fin S64x2000.rank) ∈ dot_S64x2000_S2000x1024_S64x1024_1_0_0_1_n_n.lhsNonContracting by decide)]
  rfl
/-- The left operand's column is the contraction position. -/
theorem lhs_axis1 (i : S64x1024.Idx) (q : dot_S64x2000_S2000x1024_S64x1024_1_0_0_1_n_n.contr.Idx) :
    (dot_S64x2000_S2000x1024_S64x1024_1_0_0_1_n_n.lhsIdx i q 1).val = (q ⟨0, by decide⟩).val :=
  dot_S64x2000_S2000x1024_S64x1024_1_0_0_1_n_n.lhsIdx_val_of_single rfl i q
/-- The right operand's row is the contraction position. -/
theorem rhs_axis0 (i : S64x1024.Idx) (q : dot_S64x2000_S2000x1024_S64x1024_1_0_0_1_n_n.contr.Idx) :
    (dot_S64x2000_S2000x1024_S64x1024_1_0_0_1_n_n.rhsIdx i q 0).val = (q ⟨0, by decide⟩).val :=
  dot_S64x2000_S2000x1024_S64x1024_1_0_0_1_n_n.rhsIdx_val_of_single rfl i q
/-- The right operand's column is the output's column. -/
theorem rhs_axis1 (i : S64x1024.Idx) (q : dot_S64x2000_S2000x1024_S64x1024_1_0_0_1_n_n.contr.Idx) :
    (dot_S64x2000_S2000x1024_S64x1024_1_0_0_1_n_n.rhsIdx i q 1).val = (i 1).val := by
  unfold DotDims.rhsIdx
  rw [dif_neg (show ¬(1 : Fin S2000x1024.rank) ∈ dot_S64x2000_S2000x1024_S64x1024_1_0_0_1_n_n.rhsBatch by decide), dif_pos (show (1 : Fin S2000x1024.rank) ∈ dot_S64x2000_S2000x1024_S64x1024_1_0_0_1_n_n.rhsNonContracting by decide)]
  rfl

/-- The product into the zero block at `(b, c)`: the sum over the 2000 rows of the left operand at `(b, k)` times the
    right operand at `(k, c)`. -/
theorem contraction_apply (L : FVec Ideal S64x2000 .bf16) (R : FVec Ideal S2000x1024 .bf16) (b : Fin 64) (c : Fin 1024) :
    matmul dot_S64x2000_S2000x1024_S64x1024_1_0_0_1_n_n none L R (constant (F := Ideal) S64x1024 .f32 0x00000000#32) (ix2 b c)
      = ∑ k : Fin 2000, L (ix2 b k) * R (ix2 k c) := by
  simp only [matmul]
  rw [Ideal.matmul_constant_zero_apply, ← Equiv.sum_comp (contrEquiv1 dot_S64x2000_S2000x1024_S64x1024_1_0_0_1_n_n 2000 rfl rfl).symm]
  refine Finset.sum_congr rfl fun k _ => ?_
  have hk := contrEquiv1_symm_val dot_S64x2000_S2000x1024_S64x1024_1_0_0_1_n_n 2000 rfl rfl k
  have el : dot_S64x2000_S2000x1024_S64x1024_1_0_0_1_n_n.lhsIdx (ix2 b c) ((contrEquiv1 dot_S64x2000_S2000x1024_S64x1024_1_0_0_1_n_n 2000 rfl rfl).symm k) = ix2 b k := funext fun a => Fin.ext (by
    match a with
    | ⟨0, _⟩ => exact lhs_axis0 _ _
    | ⟨1, _⟩ => exact (lhs_axis1 _ _).trans hk)
  have er : dot_S64x2000_S2000x1024_S64x1024_1_0_0_1_n_n.rhsIdx (ix2 b c) ((contrEquiv1 dot_S64x2000_S2000x1024_S64x1024_1_0_0_1_n_n 2000 rfl rfl).symm k) = ix2 k c := funext fun a => Fin.ext (by
    match a with
    | ⟨0, _⟩ => exact (rhs_axis0 _ _).trans hk
    | ⟨1, _⟩ => exact rhs_axis1 _ _)
  rw [el, er]

/-! ## The two payloads at an entry -/

/-- The reset block is zero everywhere. -/
theorem pay1_apply (j : S64x32x32.Idx) : k0_pay1 (F := Ideal) j = 0 := by
  unfold k0_pay1
  exact Ideal.ofBits_zero_f32

/-- The update at entry (b, s, t). -/
theorem pay2_apply (x0 : Vec Ideal S2000x32 .f32) (x1 : Vec Ideal S2000x1 .i32) (x2 : Vec Ideal S1x32 .f32)
    (acc : Vec Ideal S64x32x32 .f32) (b : Fin 64) (s t : Fin 32) :
    k0_pay2 (F := Ideal) x0 x1 x2 acc (ix3 b s t)
      = acc (ix3 b s t) + ∑ k : Fin 2000,
          (if x1 (ix2 k (0 : Fin 1)) = BitVec.ofNat 32 b.val then (1 : EReal) else 0)
            * Cert.Ecc.bump (x2 (ix2 (0 : Fin 1) s)) (x0 (ix2 k t)) := by
  unfold k0_pay2
  rw [addf_apply, shapeCast_self, shapeCast_split_apply, contraction_apply]
  refine congrArg (acc (ix3 b s t) + ·) (Finset.sum_congr rfl fun k _ => ?_)
  rw [onehot_apply, bump_apply]

end Cert.KernelIdeal.Pay

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Region0.lean ====
/-
  Region 0 (the node segment sum), read off the frame run: the output block never moves, is reset at the first of the
  25 grid points and is written back once, after the last. At point n it holds the sum of the one-hot weighted bumps of
  the simplices of tiles 0 .. n, 2000 to a tile; after the last point that is the whole segment sum over 50000 simplices.
-/
import proofs.«429715_j15942918603129_1_alg».proof.Proof.Spec
import proofs.«429715_j15942918603129_1_alg».proof.Proof.Payload
import proofs.«429715_j15942918603129_1_alg».proof.Proof.LibTileSums
import proofs.«429715_j15942918603129_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the region's sizes: grid points, the point that writes back, rows of the arrays, rows of a block
local notation "NPTS" => (25 : ℕ)
local notation "LASTP" => (24 : ℕ)
local notation "NROWS" => (50000 : ℕ)
local notation "TILE" => (2000 : ℕ)

variable (V : (c : Dev nD) → (b : Ref sig .tc) → Buf (Elt Ideal) ((c : Thread nD τ).loc b))

/-- The heights, the graph words and the thresholds as the region finds them, at their literal types. -/
abbrev harr (c : Dev nD) : Vec Ideal S50000x32 .f32 := V c main_v3
abbrev iarr (c : Dev nD) : Vec Ideal S50000x1 .i32 := V c main_v4
abbrev larr (c : Dev nD) : Vec Ideal S1x32 .f32 := V c main_v5

/-- The segment sum of the region's arrays. -/
def seg (c : Dev nD) : Vec Ideal S64x32x32 .f32 := fun j =>
  Cert.Ecc.segEcc (M := 50000) (fun m t => harr V c (ix2 m t)) (fun m => iarr V c (ix2 m (0 : Fin 1)))
    (fun s => larr V c (ix2 (0 : Fin 1) s)) (j 0) (j 1) (j 2)

/-- The zero offsets of a rank-3 and of a rank-2 block, however they are spelt. -/
theorem hz : (![0, 0, 0] : Fin 3 → Nat) = fun _ => 0 := funext fun a => by fin_cases a <;> rfl
theorem hz2 : (![0, 0] : Fin 2 → Nat) = fun _ => 0 := funext fun a => by fin_cases a <;> rfl

section CaseValues
variable {F : FTy → Type} [FloatOps F]

/-- At a later point the body leaves the update of the three input blocks over what the output block held. -/
theorem out_B (c : Dev nD) (i : grid0.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : ¬cond0_0 i)
    (x0 : Vec F S2000x32 .f32) (x1 : Vec F S2000x1 .i32) (x2 : Vec F S1x32 .f32) (xo : Vec F S64x32x32 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S2000x32) hz2, View.ld_unit_zero (S := S2000x1) hz2, View.ld_unit_zero (S := S1x32) hz2,
    View.ld_unit_zero (S := S64x32x32) hz]

/-- At the first point the body stores the zero block, reads it back and leaves the update of the input blocks over it. -/
theorem out_A (c : Dev nD) (i : grid0.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : cond0_0 i)
    (x0 : Vec F S2000x32 .f32) (x1 : Vec F S2000x1 .i32) (x2 : Vec F S1x32 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S64x32x32) hz, View.readCov_unit_zero (S := S64x32x32) _ hz]
  simp only [View.readAt_eq_ld, h1.read_unread, h2.read_unread, h3.read_unread,
    View.ld_unit_zero (S := S2000x32) hz2, View.ld_unit_zero (S := S2000x1) hz2, View.ld_unit_zero (S := S1x32) hz2]

end CaseValues

/-- The three input blocks at a grid point, at their literal types. -/
abbrev hblk (c : Dev nD) (t : Fin cfg0.N) : Vec Ideal S2000x32 .f32 := iblk0 V c 0 t
abbrev wblk (c : Dev nD) (t : Fin cfg0.N) : Vec Ideal S2000x1 .i32 := iblk0 V c 1 t
abbrev lblk (c : Dev nD) (t : Fin cfg0.N) : Vec Ideal S1x32 .f32 := iblk0 V c 2 t

/-- Row k of tile t is a row of the whole array. -/
theorem row_lt (t : Fin cfg0.N) (k : Fin TILE) : t.val * TILE + k.val < NROWS := by
  have := lt_of_lt_of_eq t.isLt (show cfg0.N = NPTS from N_0); have := k.isLt; omega

/-- Where each input window's block sits: windows 0 and 1 at row block t, window 2 at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- Entry (k, u) of the heights' block t is entry (t * TILE + k, u) of the heights. -/
theorem hblk_apply (c : Dev nD) (t : Fin cfg0.N) (k : Fin TILE) (u : Fin 32) :
    hblk V c t (ix2 k u) = harr V c (ix2 ⟨t.val * TILE + k.val, row_lt t k⟩ u) := by
  unfold hblk iblk0
  rw [View.read_apply]
  show V c main_v3 _ = V c main_v3 _
  congr 1
  funext a
  apply Fin.ext
  match a with
  | ⟨0, _⟩ => show win0_0.index t 0 * TILE + 1 * k.val = t.val * TILE + k.val; rw [(idx0 t).1]; omega
  | ⟨1, _⟩ => show win0_0.index t 1 * 32 + 1 * u.val = u.val; rw [(idx0 t).2]; omega

/-- Entry (k, 0) of the words' block t is entry (t * TILE + k, 0) of the words. -/
theorem wblk_apply (c : Dev nD) (t : Fin cfg0.N) (k : Fin TILE) :
    wblk V c t (ix2 k (0 : Fin 1)) = iarr V c (ix2 ⟨t.val * TILE + k.val, row_lt t k⟩ (0 : Fin 1)) := by
  unfold wblk iblk0
  rw [View.read_apply]
  show V c main_v4 _ = V c main_v4 _
  congr 1
  funext a
  apply Fin.ext
  match a with
  | ⟨0, _⟩ => show win0_1.index t 0 * TILE + 1 * k.val = t.val * TILE + k.val; rw [(idx1 t).1]; omega
  | ⟨1, _⟩ => show win0_1.index t 1 * 1 + 1 * 0 = 0; rw [(idx1 t).2]

/-- The thresholds' block is the thresholds at every point. -/
theorem lblk_apply (c : Dev nD) (t : Fin cfg0.N) (s : Fin 32) :
    lblk V c t (ix2 (0 : Fin 1) s) = larr V c (ix2 (0 : Fin 1) s) := by
  unfold lblk iblk0
  rw [View.read_apply]
  show V c main_v5 _ = V c main_v5 _
  congr 1
  funext a
  apply Fin.ext
  match a with
  | ⟨0, _⟩ => show win0_2.index t 0 * 1 + 1 * 0 = 0; rw [(idx2 t).1]
  | ⟨1, _⟩ => show win0_2.index t 1 * 32 + 1 * s.val = s.val; rw [(idx2 t).2]; omega

/-- One simplex's term of entry (b, s, u): its one-hot weight for graph b times its bump at (s, u). -/
def term (c : Dev nD) (b : Fin 64) (s u : Fin 32) (m : Fin NROWS) : EReal :=
  (if iarr V c (ix2 m (0 : Fin 1)) = BitVec.ofNat 32 b.val then (1 : EReal) else 0)
    * Cert.Ecc.bump (larr V c (ix2 (0 : Fin 1) s)) (harr V c (ix2 m u))

/-- Tile i's share of entry (b, s, u): the terms of its TILE simplices; nothing past the last tile. -/
def tsum (c : Dev nD) (b : Fin 64) (s u : Fin 32) (i : ℕ) : EReal :=
  if hi : i < cfg0.N then ∑ k : Fin TILE, term V c b s u ⟨i * TILE + k.val, row_lt ⟨i, hi⟩ k⟩ else 0

/-- What one point's update adds at entry (b, s, u), over the point's blocks, is its tile's share. -/
theorem tile_eq (c : Dev nD) (t : Fin cfg0.N) (b : Fin 64) (s u : Fin 32) :
    ∑ k : Fin TILE, (if wblk V c t (ix2 k (0 : Fin 1)) = BitVec.ofNat 32 b.val then (1 : EReal) else 0)
        * Cert.Ecc.bump (lblk V c t (ix2 (0 : Fin 1) s)) (hblk V c t (ix2 k u))
      = tsum V c b s u t.val := by
  unfold tsum
  rw [dif_pos t.isLt]
  refine Finset.sum_congr rfl fun k _ => ?_
  rw [wblk_apply V c t k, lblk_apply V c t s, hblk_apply V c t k u]
  rfl

/-- THE INVARIANT. After point n the output block holds, at entry (b, s, u), the shares of tiles 0 .. n. -/
theorem outsAt_eq (c : Dev nD) (b : Fin 64) (s u : Fin 32) :
    ∀ (n : ℕ) (h : n < cfg0.N), outsAt0 V c n h (ix3 b s u) = ∑ i : Fin (n + 1), tsum V c b s u i.val := by
  intro n
  induction n with
  | zero =>
    intro h
    rw [outsAt0_A V c ⟨0, h⟩ rfl]
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr (Nat.zero_mod _))
      (hblk V c ⟨0, h⟩) (wblk V c ⟨0, h⟩) (lblk V c ⟨0, h⟩)) (ix3 b s u)).trans ?_
    refine (Pay.pay2_apply (hblk V c ⟨0, h⟩) (wblk V c ⟨0, h⟩) (lblk V c ⟨0, h⟩) (k0_pay1 (F := Ideal)) b s u).trans ?_
    rw [Pay.pay1_apply (ix3 b s u), zero_add, tile_eq V c ⟨0, h⟩ b s u, Fin.sum_univ_castSucc, Fin.sum_univ_zero, zero_add]
    rfl
  | succ n ih =>
    intro h
    have hN : cfg0.N = NPTS := N_0
    have hB : ¬(⟨n + 1, h⟩ : Fin cfg0.N).val % NPTS = 0 := by dsimp only; omega
    rw [outsAt0_B V c ⟨n + 1, h⟩ hB]
    refine (congrFun (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hB ((hcond0_0 ⟨n + 1, h⟩).mp hh))
      (hblk V c ⟨n + 1, h⟩) (wblk V c ⟨n + 1, h⟩) (lblk V c ⟨n + 1, h⟩) (outsAt0 V c n (Nat.lt_of_succ_lt h))) (ix3 b s u)).trans ?_
    refine (Pay.pay2_apply (hblk V c ⟨n + 1, h⟩) (wblk V c ⟨n + 1, h⟩) (lblk V c ⟨n + 1, h⟩) (outsAt0 V c n (Nat.lt_of_succ_lt h)) b s u).trans ?_
    rw [ih (Nat.lt_of_succ_lt h), tile_eq V c ⟨n + 1, h⟩ b s u, Fin.sum_univ_castSucc (n := n + 1)]
    rfl

/-- The last grid point, the one that writes the output block back. -/
abbrev tlast : Fin cfg0.N := ⟨LASTP, lt_of_lt_of_eq (by decide : LASTP < NPTS) N_0.symm⟩

/-- What the output block holds after the last point, as contents of the result array. -/
abbrev result (c : Dev nD) : Buf (Elt Ideal) ((c : Thread nD τ).loc main_v6) := outsAt0 V c LASTP (tlast).isLt

/-- The output window's block sits at the origin at every point, and is the whole array. -/
theorem idx3 : ∀ (t : Fin cfg0.N) (a : Fin 3), win0_3.index t a = 0 :=
  (by decide +kernel : ∀ (t : Fin grid0.N) (a : Fin 3), win0_3.index t a = 0)
theorem xsize3 : ∀ t : Fin cfg0.N, win0_3.xsize (grid0.coords t) 0 = 64 ∧ win0_3.xsize (grid0.coords t) 1 = 32
    ∧ win0_3.xsize (grid0.coords t) 2 = 32 :=
  (by decide +kernel : ∀ t : Fin grid0.N, win0_3.xsize (grid0.coords t) 0 = 64 ∧ win0_3.xsize (grid0.coords t) 1 = 32
    ∧ win0_3.xsize (grid0.coords t) 2 = 32)

/-- The one write-back, at the last point, writes that block: read through zero offsets it is the whole array. -/
theorem flushed_eq (c : Dev nD) (t : Fin cfg0.N) (hf : (cfg0.win 3).flush t = true) :
    (dat0 V c).flushed 3 t = ((cfg0.win 3).blk t).view.read (Elt Ideal) (result V c) := by
  have hN : cfg0.N = NPTS := N_0
  have h3 : t.val = LASTP := by have := (flush0_3 t).mp hf; have := t.isLt; omega
  obtain rfl : t = tlast := Fin.ext h3
  show (cfg0.win 3).cut (grid0.coords tlast) ((dat0 V c).after 3 tlast) = _
  rw [after0_3]
  have hz' : (fun a => win0_3.index tlast a * main_v6.ty.shape.size a) = fun _ => 0 :=
    funext fun a => by rw [idx3 tlast a, Nat.zero_mul]
  exact (Memref.read_access_unit_zero (Elt Ideal) main_v6 hz' (fun a => by rw [congrFun hz' a]; simp) (result V c)).symm

/-- So the result array ends holding what the output block held after the last point: that point's block covers it. -/
theorem final_o (c : Dev nD) : (dat0 V c).arrAt 3 cfg0.N = result V c :=
  (dat0 V c).arrAt_eq_of_cover 3 (result V c) (flushed_eq V c) fun i =>
    ⟨tlast, (flush0_3 tlast).mpr rfl, by
      show i ∈ ((View.whole main_v6).slice (win0_3.rect tlast)).set
      rw [View.set_slice_whole, Rect.mem_set_unit]
      intro a
      have h0 : (i 0 : Nat) < 64 := (i 0).isLt
      have h1 : (i 1 : Nat) < 32 := (i 1).isLt
      have h2 : (i 2 : Nat) < 32 := (i 2).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [idx3 tlast 0, (xsize3 tlast).1]; omega
      | ⟨1, _⟩ => show win0_3.index tlast 1 * win0_3.size 1 ≤ (i 1 : Nat) ∧ (i 1 : Nat) < win0_3.index tlast 1 * win0_3.size 1 + win0_3.xsize (grid0.coords tlast) 1
                  rw [idx3 tlast 1, (xsize3 tlast).2.1]; omega
      | ⟨2, _⟩ => show win0_3.index tlast 2 * win0_3.size 2 ≤ (i 2 : Nat) ∧ (i 2 : Nat) < win0_3.index tlast 2 * win0_3.size 2 + win0_3.xsize (grid0.coords tlast) 2
                  rw [idx3 tlast 2, (xsize3 tlast).2.2]; omega⟩

/-- The shares of all the tiles are the whole segment sum: NPTS tiles of TILE rows are the NROWS rows. -/
theorem result_eq_seg (c : Dev nD) : (outsAt0 V c LASTP (tlast).isLt : Vec Ideal S64x32x32 .f32) = seg V c := by
  funext j
  obtain ⟨b, s, u, rfl⟩ : ∃ b s u, j = ix3 b s u := ⟨j 0, j 1, j 2, eq_ix3 j⟩
  rw [outsAt_eq V c b s u LASTP (tlast).isLt]
  show ∑ i : Fin NPTS, tsum V c b s u i.val = ∑ m : Fin NROWS, term V c b s u m
  rw [← Cert.LibTileSums.sum_tiles (by decide : NPTS * TILE = NROWS) (term V c b s u)]
  refine Finset.sum_congr rfl fun i _ => ?_
  unfold tsum
  rw [dif_pos (lt_of_lt_of_eq i.isLt N_0.symm)]

/-- The result array after the region is the segment sum. -/
theorem final (c : Dev nD) : (dat0 (F := Ideal) V c).arrAt 3 cfg0.N = seg V c :=
  (final_o V c).trans (result_eq_seg V c)

end Cert.KernelIdeal.Region0

end
-- ==== Proof.PayloadSiblings.lean ====
/-
  The three regions run one kernel function, so their update terms are one term: the reading of region 0's update at an
  entry is the reading of the other two.
-/
import proofs.«429715_j15942918603129_1_alg».proof.Proof.Payload

noncomputable section

open Idealize.ShloMosaic Idealize.ShloMosaic.ValueIdx Cert.KernelIdeal Cert.KernelIdeal.Gen
open scoped BigOperators

namespace Cert.KernelIdeal.Pay1

theorem pay1_apply (j : S64x32x32.Idx) : k1_pay1 (F := Ideal) j = 0 := Cert.KernelIdeal.Pay.pay1_apply j

theorem pay2_apply (x0 : Vec Ideal S2000x32 .f32) (x1 : Vec Ideal S2000x1 .i32) (x2 : Vec Ideal S1x32 .f32)
    (acc : Vec Ideal S64x32x32 .f32) (b : Fin 64) (s t : Fin 32) :
    k1_pay2 (F := Ideal) x0 x1 x2 acc (ix3 b s t)
      = acc (ix3 b s t) + ∑ k : Fin 2000,
          (if x1 (ix2 k (0 : Fin 1)) = BitVec.ofNat 32 b.val then (1 : EReal) else 0)
            * Cert.Ecc.bump (x2 (ix2 (0 : Fin 1) s)) (x0 (ix2 k t)) :=
  Cert.KernelIdeal.Pay.pay2_apply x0 x1 x2 acc b s t

end Cert.KernelIdeal.Pay1

namespace Cert.KernelIdeal.Pay2

theorem pay1_apply (j : S64x32x32.Idx) : k2_pay1 (F := Ideal) j = 0 := Cert.KernelIdeal.Pay.pay1_apply j

theorem pay2_apply (x0 : Vec Ideal S2000x32 .f32) (x1 : Vec Ideal S2000x1 .i32) (x2 : Vec Ideal S1x32 .f32)
    (acc : Vec Ideal S64x32x32 .f32) (b : Fin 64) (s t : Fin 32) :
    k2_pay2 (F := Ideal) x0 x1 x2 acc (ix3 b s t)
      = acc (ix3 b s t) + ∑ k : Fin 2000,
          (if x1 (ix2 k (0 : Fin 1)) = BitVec.ofNat 32 b.val then (1 : EReal) else 0)
            * Cert.Ecc.bump (x2 (ix2 (0 : Fin 1) s)) (x0 (ix2 k t)) :=
  Cert.KernelIdeal.Pay.pay2_apply x0 x1 x2 acc b s t

end Cert.KernelIdeal.Pay2

end
-- ==== Proof.Region1.lean ====
/-
  Region 1 (the edge segment sum), read off the frame run: the output block never moves, is reset at the first of the
  75 grid points and is written back once, after the last. At point n it holds the sum of the one-hot weighted bumps of
  the simplices of tiles 0 .. n, 2000 to a tile; after the last point that is the whole segment sum over 150000 simplices.
-/
import proofs.«429715_j15942918603129_1_alg».proof.Proof.Spec
import proofs.«429715_j15942918603129_1_alg».proof.Proof.PayloadSiblings
import proofs.«429715_j15942918603129_1_alg».proof.Proof.LibTileSums
import proofs.«429715_j15942918603129_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the region's sizes: grid points, the point that writes back, rows of the arrays, rows of a block
local notation "NPTS" => (75 : ℕ)
local notation "LASTP" => (74 : ℕ)
local notation "NROWS" => (150000 : ℕ)
local notation "TILE" => (2000 : ℕ)

variable (V : (c : Dev nD) → (b : Ref sig .tc) → Buf (Elt Ideal) ((c : Thread nD τ).loc b))

/-- The heights, the graph words and the thresholds as the region finds them, at their literal types. -/
abbrev harr (c : Dev nD) : Vec Ideal S150000x32 .f32 := V c main_v17
abbrev iarr (c : Dev nD) : Vec Ideal S150000x1 .i32 := V c main_v27
abbrev larr (c : Dev nD) : Vec Ideal S1x32 .f32 := V c main_v28

/-- The segment sum of the region's arrays. -/
def seg (c : Dev nD) : Vec Ideal S64x32x32 .f32 := fun j =>
  Cert.Ecc.segEcc (M := 150000) (fun m t => harr V c (ix2 m t)) (fun m => iarr V c (ix2 m (0 : Fin 1)))
    (fun s => larr V c (ix2 (0 : Fin 1) s)) (j 0) (j 1) (j 2)

/-- The zero offsets of a rank-3 and of a rank-2 block, however they are spelt. -/
theorem hz : (![0, 0, 0] : Fin 3 → Nat) = fun _ => 0 := funext fun a => by fin_cases a <;> rfl
theorem hz2 : (![0, 0] : Fin 2 → Nat) = fun _ => 0 := funext fun a => by fin_cases a <;> rfl

section CaseValues
variable {F : FTy → Type} [FloatOps F]

/-- At a later point the body leaves the update of the three input blocks over what the output block held. -/
theorem out_B (c : Dev nD) (i : grid1.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : ¬cond1_0 i)
    (x0 : Vec F S2000x32 .f32) (x1 : Vec F S2000x1 .i32) (x2 : Vec F S1x32 .f32) (xo : Vec F S64x32x32 .f32) :
    out1_B_3 c i a1 h1 a2 h2 a3 h3 a4 h4 hc x0 x1 x2 xo = k1_pay2 x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz]
  simp only [View.readAt_eq_ld, h1.read_unread, h2.read_unread, h3.read_unread, h4.read_unread,
    View.ld_unit_zero (S := S2000x32) hz2, View.ld_unit_zero (S := S2000x1) hz2, View.ld_unit_zero (S := S1x32) hz2,
    View.ld_unit_zero (S := S64x32x32) hz]

/-- At the first point the body stores the zero block, reads it back and leaves the update of the input blocks over it. -/
theorem out_A (c : Dev nD) (i : grid1.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : cond1_0 i)
    (x0 : Vec F S2000x32 .f32) (x1 : Vec F S2000x1 .i32) (x2 : Vec F S1x32 .f32) :
    out1_A_3 c i a1 h1 a2 h2 a3 h3 a4 h4 hc x0 x1 x2 = k1_pay2 x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S64x32x32) hz, View.readCov_unit_zero (S := S64x32x32) _ hz]
  simp only [View.readAt_eq_ld, h1.read_unread, h2.read_unread, h3.read_unread,
    View.ld_unit_zero (S := S2000x32) hz2, View.ld_unit_zero (S := S2000x1) hz2, View.ld_unit_zero (S := S1x32) hz2]

end CaseValues

/-- The three input blocks at a grid point, at their literal types. -/
abbrev hblk (c : Dev nD) (t : Fin cfg1.N) : Vec Ideal S2000x32 .f32 := iblk1 V c 0 t
abbrev wblk (c : Dev nD) (t : Fin cfg1.N) : Vec Ideal S2000x1 .i32 := iblk1 V c 1 t
abbrev lblk (c : Dev nD) (t : Fin cfg1.N) : Vec Ideal S1x32 .f32 := iblk1 V c 2 t

/-- Row k of tile t is a row of the whole array. -/
theorem row_lt (t : Fin cfg1.N) (k : Fin TILE) : t.val * TILE + k.val < NROWS := by
  have := lt_of_lt_of_eq t.isLt (show cfg1.N = NPTS from N_1); have := k.isLt; omega

/-- Where each input window's block sits: windows 0 and 1 at row block t, window 2 at the origin. -/
theorem idx0 : ∀ t : Fin cfg1.N, win1_0.index t 0 = t.val ∧ win1_0.index t 1 = 0 :=
  (by decide +kernel : ∀ t : Fin grid1.N, win1_0.index t 0 = t.val ∧ win1_0.index t 1 = 0)
theorem idx1 : ∀ t : Fin cfg1.N, win1_1.index t 0 = t.val ∧ win1_1.index t 1 = 0 :=
  (by decide +kernel : ∀ t : Fin grid1.N, win1_1.index t 0 = t.val ∧ win1_1.index t 1 = 0)
theorem idx2 : ∀ t : Fin cfg1.N, win1_2.index t 0 = 0 ∧ win1_2.index t 1 = 0 :=
  (by decide +kernel : ∀ t : Fin grid1.N, win1_2.index t 0 = 0 ∧ win1_2.index t 1 = 0)

/-- Entry (k, u) of the heights' block t is entry (t * TILE + k, u) of the heights. -/
theorem hblk_apply (c : Dev nD) (t : Fin cfg1.N) (k : Fin TILE) (u : Fin 32) :
    hblk V c t (ix2 k u) = harr V c (ix2 ⟨t.val * TILE + k.val, row_lt t k⟩ u) := by
  unfold hblk iblk1
  rw [View.read_apply]
  show V c main_v17 _ = V c main_v17 _
  congr 1
  funext a
  apply Fin.ext
  match a with
  | ⟨0, _⟩ => show win1_0.index t 0 * TILE + 1 * k.val = t.val * TILE + k.val; rw [(idx0 t).1]; omega
  | ⟨1, _⟩ => show win1_0.index t 1 * 32 + 1 * u.val = u.val; rw [(idx0 t).2]; omega

/-- Entry (k, 0) of the words' block t is entry (t * TILE + k, 0) of the words. -/
theorem wblk_apply (c : Dev nD) (t : Fin cfg1.N) (k : Fin TILE) :
    wblk V c t (ix2 k (0 : Fin 1)) = iarr V c (ix2 ⟨t.val * TILE + k.val, row_lt t k⟩ (0 : Fin 1)) := by
  unfold wblk iblk1
  rw [View.read_apply]
  show V c main_v27 _ = V c main_v27 _
  congr 1
  funext a
  apply Fin.ext
  match a with
  | ⟨0, _⟩ => show win1_1.index t 0 * TILE + 1 * k.val = t.val * TILE + k.val; rw [(idx1 t).1]; omega
  | ⟨1, _⟩ => show win1_1.index t 1 * 1 + 1 * 0 = 0; rw [(idx1 t).2]

/-- The thresholds' block is the thresholds at every point. -/
theorem lblk_apply (c : Dev nD) (t : Fin cfg1.N) (s : Fin 32) :
    lblk V c t (ix2 (0 : Fin 1) s) = larr V c (ix2 (0 : Fin 1) s) := by
  unfold lblk iblk1
  rw [View.read_apply]
  show V c main_v28 _ = V c main_v28 _
  congr 1
  funext a
  apply Fin.ext
  match a with
  | ⟨0, _⟩ => show win1_2.index t 0 * 1 + 1 * 0 = 0; rw [(idx2 t).1]
  | ⟨1, _⟩ => show win1_2.index t 1 * 32 + 1 * s.val = s.val; rw [(idx2 t).2]; omega

/-- One simplex's term of entry (b, s, u): its one-hot weight for graph b times its bump at (s, u). -/
def term (c : Dev nD) (b : Fin 64) (s u : Fin 32) (m : Fin NROWS) : EReal :=
  (if iarr V c (ix2 m (0 : Fin 1)) = BitVec.ofNat 32 b.val then (1 : EReal) else 0)
    * Cert.Ecc.bump (larr V c (ix2 (0 : Fin 1) s)) (harr V c (ix2 m u))

/-- Tile i's share of entry (b, s, u): the terms of its TILE simplices; nothing past the last tile. -/
def tsum (c : Dev nD) (b : Fin 64) (s u : Fin 32) (i : ℕ) : EReal :=
  if hi : i < cfg1.N then ∑ k : Fin TILE, term V c b s u ⟨i * TILE + k.val, row_lt ⟨i, hi⟩ k⟩ else 0

/-- What one point's update adds at entry (b, s, u), over the point's blocks, is its tile's share. -/
theorem tile_eq (c : Dev nD) (t : Fin cfg1.N) (b : Fin 64) (s u : Fin 32) :
    ∑ k : Fin TILE, (if wblk V c t (ix2 k (0 : Fin 1)) = BitVec.ofNat 32 b.val then (1 : EReal) else 0)
        * Cert.Ecc.bump (lblk V c t (ix2 (0 : Fin 1) s)) (hblk V c t (ix2 k u))
      = tsum V c b s u t.val := by
  unfold tsum
  rw [dif_pos t.isLt]
  refine Finset.sum_congr rfl fun k _ => ?_
  rw [wblk_apply V c t k, lblk_apply V c t s, hblk_apply V c t k u]
  rfl

/-- THE INVARIANT. After point n the output block holds, at entry (b, s, u), the shares of tiles 0 .. n. -/
theorem outsAt_eq (c : Dev nD) (b : Fin 64) (s u : Fin 32) :
    ∀ (n : ℕ) (h : n < cfg1.N), outsAt1 V c n h (ix3 b s u) = ∑ i : Fin (n + 1), tsum V c b s u i.val := by
  intro n
  induction n with
  | zero =>
    intro h
    rw [outsAt1_A V c ⟨0, h⟩ rfl]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) (ms1_3 ⟨0, h⟩) (hs1_3 ⟨0, h⟩) ((hcond1_0 ⟨0, h⟩).mpr (Nat.zero_mod _))
      (hblk V c ⟨0, h⟩) (wblk V c ⟨0, h⟩) (lblk V c ⟨0, h⟩)) (ix3 b s u)).trans ?_
    refine (Pay1.pay2_apply (hblk V c ⟨0, h⟩) (wblk V c ⟨0, h⟩) (lblk V c ⟨0, h⟩) (k1_pay1 (F := Ideal)) b s u).trans ?_
    rw [Pay1.pay1_apply (ix3 b s u), zero_add, tile_eq V c ⟨0, h⟩ b s u, Fin.sum_univ_castSucc, Fin.sum_univ_zero, zero_add]
    rfl
  | succ n ih =>
    intro h
    have hN : cfg1.N = NPTS := N_1
    have hB : ¬(⟨n + 1, h⟩ : Fin cfg1.N).val % NPTS = 0 := by dsimp only; omega
    rw [outsAt1_B V c ⟨n + 1, h⟩ hB]
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (fun hh => hB ((hcond1_0 ⟨n + 1, h⟩).mp hh))
      (hblk V c ⟨n + 1, h⟩) (wblk V c ⟨n + 1, h⟩) (lblk V c ⟨n + 1, h⟩) (outsAt1 V c n (Nat.lt_of_succ_lt h))) (ix3 b s u)).trans ?_
    refine (Pay1.pay2_apply (hblk V c ⟨n + 1, h⟩) (wblk V c ⟨n + 1, h⟩) (lblk V c ⟨n + 1, h⟩) (outsAt1 V c n (Nat.lt_of_succ_lt h)) b s u).trans ?_
    rw [ih (Nat.lt_of_succ_lt h), tile_eq V c ⟨n + 1, h⟩ b s u, Fin.sum_univ_castSucc (n := n + 1)]
    rfl

/-- The last grid point, the one that writes the output block back. -/
abbrev tlast : Fin cfg1.N := ⟨LASTP, lt_of_lt_of_eq (by decide : LASTP < NPTS) N_1.symm⟩

/-- What the output block holds after the last point, as contents of the result array. -/
abbrev result (c : Dev nD) : Buf (Elt Ideal) ((c : Thread nD τ).loc main_v29) := outsAt1 V c LASTP (tlast).isLt

/-- The output window's block sits at the origin at every point, and is the whole array. -/
theorem idx3 : ∀ (t : Fin cfg1.N) (a : Fin 3), win1_3.index t a = 0 :=
  (by decide +kernel : ∀ (t : Fin grid1.N) (a : Fin 3), win1_3.index t a = 0)
theorem xsize3 : ∀ t : Fin cfg1.N, win1_3.xsize (grid1.coords t) 0 = 64 ∧ win1_3.xsize (grid1.coords t) 1 = 32
    ∧ win1_3.xsize (grid1.coords t) 2 = 32 :=
  (by decide +kernel : ∀ t : Fin grid1.N, win1_3.xsize (grid1.coords t) 0 = 64 ∧ win1_3.xsize (grid1.coords t) 1 = 32
    ∧ win1_3.xsize (grid1.coords t) 2 = 32)

/-- The one write-back, at the last point, writes that block: read through zero offsets it is the whole array. -/
theorem flushed_eq (c : Dev nD) (t : Fin cfg1.N) (hf : (cfg1.win 3).flush t = true) :
    (dat1 V c).flushed 3 t = ((cfg1.win 3).blk t).view.read (Elt Ideal) (result V c) := by
  have hN : cfg1.N = NPTS := N_1
  have h3 : t.val = LASTP := by have := (flush1_3 t).mp hf; have := t.isLt; omega
  obtain rfl : t = tlast := Fin.ext h3
  show (cfg1.win 3).cut (grid1.coords tlast) ((dat1 V c).after 3 tlast) = _
  rw [after1_3]
  have hz' : (fun a => win1_3.index tlast a * main_v29.ty.shape.size a) = fun _ => 0 :=
    funext fun a => by rw [idx3 tlast a, Nat.zero_mul]
  exact (Memref.read_access_unit_zero (Elt Ideal) main_v29 hz' (fun a => by rw [congrFun hz' a]; simp) (result V c)).symm

/-- So the result array ends holding what the output block held after the last point: that point's block covers it. -/
theorem final_o (c : Dev nD) : (dat1 V c).arrAt 3 cfg1.N = result V c :=
  (dat1 V c).arrAt_eq_of_cover 3 (result V c) (flushed_eq V c) fun i =>
    ⟨tlast, (flush1_3 tlast).mpr rfl, by
      show i ∈ ((View.whole main_v29).slice (win1_3.rect tlast)).set
      rw [View.set_slice_whole, Rect.mem_set_unit]
      intro a
      have h0 : (i 0 : Nat) < 64 := (i 0).isLt
      have h1 : (i 1 : Nat) < 32 := (i 1).isLt
      have h2 : (i 2 : Nat) < 32 := (i 2).isLt
      match a with
      | ⟨0, _⟩ => show win1_3.index tlast 0 * win1_3.size 0 ≤ (i 0 : Nat) ∧ (i 0 : Nat) < win1_3.index tlast 0 * win1_3.size 0 + win1_3.xsize (grid1.coords tlast) 0
                  rw [idx3 tlast 0, (xsize3 tlast).1]; omega
      | ⟨1, _⟩ => show win1_3.index tlast 1 * win1_3.size 1 ≤ (i 1 : Nat) ∧ (i 1 : Nat) < win1_3.index tlast 1 * win1_3.size 1 + win1_3.xsize (grid1.coords tlast) 1
                  rw [idx3 tlast 1, (xsize3 tlast).2.1]; omega
      | ⟨2, _⟩ => show win1_3.index tlast 2 * win1_3.size 2 ≤ (i 2 : Nat) ∧ (i 2 : Nat) < win1_3.index tlast 2 * win1_3.size 2 + win1_3.xsize (grid1.coords tlast) 2
                  rw [idx3 tlast 2, (xsize3 tlast).2.2]; omega⟩

/-- The shares of all the tiles are the whole segment sum: NPTS tiles of TILE rows are the NROWS rows. -/
theorem result_eq_seg (c : Dev nD) : (outsAt1 V c LASTP (tlast).isLt : Vec Ideal S64x32x32 .f32) = seg V c := by
  funext j
  obtain ⟨b, s, u, rfl⟩ : ∃ b s u, j = ix3 b s u := ⟨j 0, j 1, j 2, eq_ix3 j⟩
  rw [outsAt_eq V c b s u LASTP (tlast).isLt]
  show ∑ i : Fin NPTS, tsum V c b s u i.val = ∑ m : Fin NROWS, term V c b s u m
  rw [← Cert.LibTileSums.sum_tiles (by decide : NPTS * TILE = NROWS) (term V c b s u)]
  refine Finset.sum_congr rfl fun i _ => ?_
  unfold tsum
  rw [dif_pos (lt_of_lt_of_eq i.isLt N_1.symm)]

/-- The result array after the region is the segment sum. -/
theorem final (c : Dev nD) : (dat1 (F := Ideal) V c).arrAt 3 cfg1.N = seg V c :=
  (final_o V c).trans (result_eq_seg V c)

end Cert.KernelIdeal.Region1

end
-- ==== Proof.Region2.lean ====
/-
  Region 2 (the face segment sum), read off the frame run: the output block never moves, is reset at the first of the
  50 grid points and is written back once, after the last. At point n it holds the sum of the one-hot weighted bumps of
  the simplices of tiles 0 .. n, 2000 to a tile; after the last point that is the whole segment sum over 100000 simplices.
-/
import proofs.«429715_j15942918603129_1_alg».proof.Proof.Spec
import proofs.«429715_j15942918603129_1_alg».proof.Proof.PayloadSiblings
import proofs.«429715_j15942918603129_1_alg».proof.Proof.LibTileSums
import proofs.«429715_j15942918603129_1_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

-- the region's sizes: grid points, the point that writes back, rows of the arrays, rows of a block
local notation "NPTS" => (50 : ℕ)
local notation "LASTP" => (49 : ℕ)
local notation "NROWS" => (100000 : ℕ)
local notation "TILE" => (2000 : ℕ)

variable (V : (c : Dev nD) → (b : Ref sig .tc) → Buf (Elt Ideal) ((c : Thread nD τ).loc b))

/-- The heights, the graph words and the thresholds as the region finds them, at their literal types. -/
abbrev harr (c : Dev nD) : Vec Ideal S100000x32 .f32 := V c main_v40
abbrev iarr (c : Dev nD) : Vec Ideal S100000x1 .i32 := V c main_v50
abbrev larr (c : Dev nD) : Vec Ideal S1x32 .f32 := V c main_v51

/-- The segment sum of the region's arrays. -/
def seg (c : Dev nD) : Vec Ideal S64x32x32 .f32 := fun j =>
  Cert.Ecc.segEcc (M := 100000) (fun m t => harr V c (ix2 m t)) (fun m => iarr V c (ix2 m (0 : Fin 1)))
    (fun s => larr V c (ix2 (0 : Fin 1) s)) (j 0) (j 1) (j 2)

/-- The zero offsets of a rank-3 and of a rank-2 block, however they are spelt. -/
theorem hz : (![0, 0, 0] : Fin 3 → Nat) = fun _ => 0 := funext fun a => by fin_cases a <;> rfl
theorem hz2 : (![0, 0] : Fin 2 → Nat) = fun _ => 0 := funext fun a => by fin_cases a <;> rfl

section CaseValues
variable {F : FTy → Type} [FloatOps F]

/-- At a later point the body leaves the update of the three input blocks over what the output block held. -/
theorem out_B (c : Dev nD) (i : grid2.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : ¬cond2_0 i)
    (x0 : Vec F S2000x32 .f32) (x1 : Vec F S2000x1 .i32) (x2 : Vec F S1x32 .f32) (xo : Vec F S64x32x32 .f32) :
    out2_B_3 c i a1 h1 a2 h2 a3 h3 a4 h4 hc x0 x1 x2 xo = k2_pay2 x0 x1 x2 xo := by
  unfold out2_B_3
  rw [View.read_writes_eq_canon _ _ _ (cover2_B_3 c i a1 h1 a2 h2 a3 h3 a4 h4 hc x0 x1 x2 xo)]
  unfold kernelRun2_B
  dsimp only
  sl_unfold_words
  rw [View.canon_unit_zero hz]
  simp only [View.readAt_eq_ld, h1.read_unread, h2.read_unread, h3.read_unread, h4.read_unread,
    View.ld_unit_zero (S := S2000x32) hz2, View.ld_unit_zero (S := S2000x1) hz2, View.ld_unit_zero (S := S1x32) hz2,
    View.ld_unit_zero (S := S64x32x32) hz]

/-- At the first point the body stores the zero block, reads it back and leaves the update of the input blocks over it. -/
theorem out_A (c : Dev nD) (i : grid2.Coords) (a1 : Memref sig .tc .vmem S2000x32 .f32) (h1 : a1.IsWhole)
    (a2 : Memref sig .tc .vmem S2000x1 .i32) (h2 : a2.IsWhole) (a3 : Memref sig .tc .vmem S1x32 .f32) (h3 : a3.IsWhole)
    (a4 : Memref sig .tc .vmem S64x32x32 .f32) (h4 : a4.IsWhole) (hc : cond2_0 i)
    (x0 : Vec F S2000x32 .f32) (x1 : Vec F S2000x1 .i32) (x2 : Vec F S1x32 .f32) :
    out2_A_3 c i a1 h1 a2 h2 a3 h3 a4 h4 hc x0 x1 x2 = k2_pay2 x0 x1 x2 (k2_pay1 (F := F)) := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S64x32x32) hz, View.readCov_unit_zero (S := S64x32x32) _ hz]
  simp only [View.readAt_eq_ld, h1.read_unread, h2.read_unread, h3.read_unread,
    View.ld_unit_zero (S := S2000x32) hz2, View.ld_unit_zero (S := S2000x1) hz2, View.ld_unit_zero (S := S1x32) hz2]

end CaseValues

/-- The three input blocks at a grid point, at their literal types. -/
abbrev hblk (c : Dev nD) (t : Fin cfg2.N) : Vec Ideal S2000x32 .f32 := iblk2 V c 0 t
abbrev wblk (c : Dev nD) (t : Fin cfg2.N) : Vec Ideal S2000x1 .i32 := iblk2 V c 1 t
abbrev lblk (c : Dev nD) (t : Fin cfg2.N) : Vec Ideal S1x32 .f32 := iblk2 V c 2 t

/-- Row k of tile t is a row of the whole array. -/
theorem row_lt (t : Fin cfg2.N) (k : Fin TILE) : t.val * TILE + k.val < NROWS := by
  have := lt_of_lt_of_eq t.isLt (show cfg2.N = NPTS from N_2); have := k.isLt; omega

/-- Where each input window's block sits: windows 0 and 1 at row block t, window 2 at the origin. -/
theorem idx0 : ∀ t : Fin cfg2.N, win2_0.index t 0 = t.val ∧ win2_0.index t 1 = 0 :=
  (by decide +kernel : ∀ t : Fin grid2.N, win2_0.index t 0 = t.val ∧ win2_0.index t 1 = 0)
theorem idx1 : ∀ t : Fin cfg2.N, win2_1.index t 0 = t.val ∧ win2_1.index t 1 = 0 :=
  (by decide +kernel : ∀ t : Fin grid2.N, win2_1.index t 0 = t.val ∧ win2_1.index t 1 = 0)
theorem idx2 : ∀ t : Fin cfg2.N, win2_2.index t 0 = 0 ∧ win2_2.index t 1 = 0 :=
  (by decide +kernel : ∀ t : Fin grid2.N, win2_2.index t 0 = 0 ∧ win2_2.index t 1 = 0)

/-- Entry (k, u) of the heights' block t is entry (t * TILE + k, u) of the heights. -/
theorem hblk_apply (c : Dev nD) (t : Fin cfg2.N) (k : Fin TILE) (u : Fin 32) :
    hblk V c t (ix2 k u) = harr V c (ix2 ⟨t.val * TILE + k.val, row_lt t k⟩ u) := by
  unfold hblk iblk2
  rw [View.read_apply]
  show V c main_v40 _ = V c main_v40 _
  congr 1
  funext a
  apply Fin.ext
  match a with
  | ⟨0, _⟩ => show win2_0.index t 0 * TILE + 1 * k.val = t.val * TILE + k.val; rw [(idx0 t).1]; omega
  | ⟨1, _⟩ => show win2_0.index t 1 * 32 + 1 * u.val = u.val; rw [(idx0 t).2]; omega

/-- Entry (k, 0) of the words' block t is entry (t * TILE + k, 0) of the words. -/
theorem wblk_apply (c : Dev nD) (t : Fin cfg2.N) (k : Fin TILE) :
    wblk V c t (ix2 k (0 : Fin 1)) = iarr V c (ix2 ⟨t.val * TILE + k.val, row_lt t k⟩ (0 : Fin 1)) := by
  unfold wblk iblk2
  rw [View.read_apply]
  show V c main_v50 _ = V c main_v50 _
  congr 1
  funext a
  apply Fin.ext
  match a with
  | ⟨0, _⟩ => show win2_1.index t 0 * TILE + 1 * k.val = t.val * TILE + k.val; rw [(idx1 t).1]; omega
  | ⟨1, _⟩ => show win2_1.index t 1 * 1 + 1 * 0 = 0; rw [(idx1 t).2]

/-- The thresholds' block is the thresholds at every point. -/
theorem lblk_apply (c : Dev nD) (t : Fin cfg2.N) (s : Fin 32) :
    lblk V c t (ix2 (0 : Fin 1) s) = larr V c (ix2 (0 : Fin 1) s) := by
  unfold lblk iblk2
  rw [View.read_apply]
  show V c main_v51 _ = V c main_v51 _
  congr 1
  funext a
  apply Fin.ext
  match a with
  | ⟨0, _⟩ => show win2_2.index t 0 * 1 + 1 * 0 = 0; rw [(idx2 t).1]
  | ⟨1, _⟩ => show win2_2.index t 1 * 32 + 1 * s.val = s.val; rw [(idx2 t).2]; omega

/-- One simplex's term of entry (b, s, u): its one-hot weight for graph b times its bump at (s, u). -/
def term (c : Dev nD) (b : Fin 64) (s u : Fin 32) (m : Fin NROWS) : EReal :=
  (if iarr V c (ix2 m (0 : Fin 1)) = BitVec.ofNat 32 b.val then (1 : EReal) else 0)
    * Cert.Ecc.bump (larr V c (ix2 (0 : Fin 1) s)) (harr V c (ix2 m u))

/-- Tile i's share of entry (b, s, u): the terms of its TILE simplices; nothing past the last tile. -/
def tsum (c : Dev nD) (b : Fin 64) (s u : Fin 32) (i : ℕ) : EReal :=
  if hi : i < cfg2.N then ∑ k : Fin TILE, term V c b s u ⟨i * TILE + k.val, row_lt ⟨i, hi⟩ k⟩ else 0

/-- What one point's update adds at entry (b, s, u), over the point's blocks, is its tile's share. -/
theorem tile_eq (c : Dev nD) (t : Fin cfg2.N) (b : Fin 64) (s u : Fin 32) :
    ∑ k : Fin TILE, (if wblk V c t (ix2 k (0 : Fin 1)) = BitVec.ofNat 32 b.val then (1 : EReal) else 0)
        * Cert.Ecc.bump (lblk V c t (ix2 (0 : Fin 1) s)) (hblk V c t (ix2 k u))
      = tsum V c b s u t.val := by
  unfold tsum
  rw [dif_pos t.isLt]
  refine Finset.sum_congr rfl fun k _ => ?_
  rw [wblk_apply V c t k, lblk_apply V c t s, hblk_apply V c t k u]
  rfl

/-- THE INVARIANT. After point n the output block holds, at entry (b, s, u), the shares of tiles 0 .. n. -/
theorem outsAt_eq (c : Dev nD) (b : Fin 64) (s u : Fin 32) :
    ∀ (n : ℕ) (h : n < cfg2.N), outsAt2 V c n h (ix3 b s u) = ∑ i : Fin (n + 1), tsum V c b s u i.val := by
  intro n
  induction n with
  | zero =>
    intro h
    rw [outsAt2_A V c ⟨0, h⟩ rfl]
    refine (congrFun (out_A (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) (ms2_3 ⟨0, h⟩) (hs2_3 ⟨0, h⟩) ((hcond2_0 ⟨0, h⟩).mpr (Nat.zero_mod _))
      (hblk V c ⟨0, h⟩) (wblk V c ⟨0, h⟩) (lblk V c ⟨0, h⟩)) (ix3 b s u)).trans ?_
    refine (Pay2.pay2_apply (hblk V c ⟨0, h⟩) (wblk V c ⟨0, h⟩) (lblk V c ⟨0, h⟩) (k2_pay1 (F := Ideal)) b s u).trans ?_
    rw [Pay2.pay1_apply (ix3 b s u), zero_add, tile_eq V c ⟨0, h⟩ b s u, Fin.sum_univ_castSucc, Fin.sum_univ_zero, zero_add]
    rfl
  | succ n ih =>
    intro h
    have hN : cfg2.N = NPTS := N_2
    have hB : ¬(⟨n + 1, h⟩ : Fin cfg2.N).val % NPTS = 0 := by dsimp only; omega
    rw [outsAt2_B V c ⟨n + 1, h⟩ hB]
    refine (congrFun (out_B (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (ms2_3 ⟨n + 1, h⟩) (hs2_3 ⟨n + 1, h⟩) (fun hh => hB ((hcond2_0 ⟨n + 1, h⟩).mp hh))
      (hblk V c ⟨n + 1, h⟩) (wblk V c ⟨n + 1, h⟩) (lblk V c ⟨n + 1, h⟩) (outsAt2 V c n (Nat.lt_of_succ_lt h))) (ix3 b s u)).trans ?_
    refine (Pay2.pay2_apply (hblk V c ⟨n + 1, h⟩) (wblk V c ⟨n + 1, h⟩) (lblk V c ⟨n + 1, h⟩) (outsAt2 V c n (Nat.lt_of_succ_lt h)) b s u).trans ?_
    rw [ih (Nat.lt_of_succ_lt h), tile_eq V c ⟨n + 1, h⟩ b s u, Fin.sum_univ_castSucc (n := n + 1)]
    rfl

/-- The last grid point, the one that writes the output block back. -/
abbrev tlast : Fin cfg2.N := ⟨LASTP, lt_of_lt_of_eq (by decide : LASTP < NPTS) N_2.symm⟩

/-- What the output block holds after the last point, as contents of the result array. -/
abbrev result (c : Dev nD) : Buf (Elt Ideal) ((c : Thread nD τ).loc main_v52) := outsAt2 V c LASTP (tlast).isLt

/-- The output window's block sits at the origin at every point, and is the whole array. -/
theorem idx3 : ∀ (t : Fin cfg2.N) (a : Fin 3), win2_3.index t a = 0 :=
  (by decide +kernel : ∀ (t : Fin grid2.N) (a : Fin 3), win2_3.index t a = 0)
theorem xsize3 : ∀ t : Fin cfg2.N, win2_3.xsize (grid2.coords t) 0 = 64 ∧ win2_3.xsize (grid2.coords t) 1 = 32
    ∧ win2_3.xsize (grid2.coords t) 2 = 32 :=
  (by decide +kernel : ∀ t : Fin grid2.N, win2_3.xsize (grid2.coords t) 0 = 64 ∧ win2_3.xsize (grid2.coords t) 1 = 32
    ∧ win2_3.xsize (grid2.coords t) 2 = 32)

/-- The one write-back, at the last point, writes that block: read through zero offsets it is the whole array. -/
theorem flushed_eq (c : Dev nD) (t : Fin cfg2.N) (hf : (cfg2.win 3).flush t = true) :
    (dat2 V c).flushed 3 t = ((cfg2.win 3).blk t).view.read (Elt Ideal) (result V c) := by
  have hN : cfg2.N = NPTS := N_2
  have h3 : t.val = LASTP := by have := (flush2_3 t).mp hf; have := t.isLt; omega
  obtain rfl : t = tlast := Fin.ext h3
  show (cfg2.win 3).cut (grid2.coords tlast) ((dat2 V c).after 3 tlast) = _
  rw [after2_3]
  have hz' : (fun a => win2_3.index tlast a * main_v52.ty.shape.size a) = fun _ => 0 :=
    funext fun a => by rw [idx3 tlast a, Nat.zero_mul]
  exact (Memref.read_access_unit_zero (Elt Ideal) main_v52 hz' (fun a => by rw [congrFun hz' a]; simp) (result V c)).symm

/-- So the result array ends holding what the output block held after the last point: that point's block covers it. -/
theorem final_o (c : Dev nD) : (dat2 V c).arrAt 3 cfg2.N = result V c :=
  (dat2 V c).arrAt_eq_of_cover 3 (result V c) (flushed_eq V c) fun i =>
    ⟨tlast, (flush2_3 tlast).mpr rfl, by
      show i ∈ ((View.whole main_v52).slice (win2_3.rect tlast)).set
      rw [View.set_slice_whole, Rect.mem_set_unit]
      intro a
      have h0 : (i 0 : Nat) < 64 := (i 0).isLt
      have h1 : (i 1 : Nat) < 32 := (i 1).isLt
      have h2 : (i 2 : Nat) < 32 := (i 2).isLt
      match a with
      | ⟨0, _⟩ => show win2_3.index tlast 0 * win2_3.size 0 ≤ (i 0 : Nat) ∧ (i 0 : Nat) < win2_3.index tlast 0 * win2_3.size 0 + win2_3.xsize (grid2.coords tlast) 0
                  rw [idx3 tlast 0, (xsize3 tlast).1]; omega
      | ⟨1, _⟩ => show win2_3.index tlast 1 * win2_3.size 1 ≤ (i 1 : Nat) ∧ (i 1 : Nat) < win2_3.index tlast 1 * win2_3.size 1 + win2_3.xsize (grid2.coords tlast) 1
                  rw [idx3 tlast 1, (xsize3 tlast).2.1]; omega
      | ⟨2, _⟩ => show win2_3.index tlast 2 * win2_3.size 2 ≤ (i 2 : Nat) ∧ (i 2 : Nat) < win2_3.index tlast 2 * win2_3.size 2 + win2_3.xsize (grid2.coords tlast) 2
                  rw [idx3 tlast 2, (xsize3 tlast).2.2]; omega⟩

/-- The shares of all the tiles are the whole segment sum: NPTS tiles of TILE rows are the NROWS rows. -/
theorem result_eq_seg (c : Dev nD) : (outsAt2 V c LASTP (tlast).isLt : Vec Ideal S64x32x32 .f32) = seg V c := by
  funext j
  obtain ⟨b, s, u, rfl⟩ : ∃ b s u, j = ix3 b s u := ⟨j 0, j 1, j 2, eq_ix3 j⟩
  rw [outsAt_eq V c b s u LASTP (tlast).isLt]
  show ∑ i : Fin NPTS, tsum V c b s u i.val = ∑ m : Fin NROWS, term V c b s u m
  rw [← Cert.LibTileSums.sum_tiles (by decide : NPTS * TILE = NROWS) (term V c b s u)]
  refine Finset.sum_congr rfl fun i _ => ?_
  unfold tsum
  rw [dif_pos (lt_of_lt_of_eq i.isLt N_2.symm)]

/-- The result array after the region is the segment sum. -/
theorem final (c : Dev nD) : (dat2 (F := Ideal) V c).arrAt 3 cfg2.N = seg V c :=
  (final_o V c).trans (result_eq_seg V c)

end Cert.KernelIdeal.Region2

end
-- ==== Proof.KernelValue.lean ====
/-
  The kernel program's result, read at one entry.

  The program is three regions among four stretches of host operations. The last stretch subtracts the edge region's
  output array from the node region's and adds the face region's; no later operation or region writes an output array
  once its region has left it, so each is still what its region left. Each region's output is the segment sum of the three
  arrays the region is entered with, and those are host values computed before it: the node heights (the projected weighted
  coordinates), the edge and face heights (weighted maxima of gathered node heights), the graph words (the batch words,
  or the batch word of a simplex's first vertex) as a one-column array, and the thresholds as a one-row array. They are the
  very operations the reference applies to the same arguments, so they are named here by the reference's own stages and
  never opened.
-/
import proofs.«429715_j15942918603129_1_alg».proof.Proof.Spec
import proofs.«429715_j15942918603129_1_alg».proof.Proof.Region0
import proofs.«429715_j15942918603129_1_alg».proof.Proof.Region1
import proofs.«429715_j15942918603129_1_alg».proof.Proof.Region2
import proofs.«429715_j15942918603129_1_alg».proof.Proof.Gen.KernelIdeal.Frame
import proofs.«429715_j15942918603129_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen
open scoped BigOperators

variable (m : (ℓ : Loc nD τ sig) → Buf (Elt Ideal) ℓ) (ρ : Dev nD → PrngReg)

/-! ## The launch contents of the arguments, at their literal types -/

abbrev x0 (c : Dev nD) : Vec Ideal S50000x3 .f32 := m ((c.tc : Thread nD τ).loc main_arg0)
abbrev x1 (c : Dev nD) : Vec Ideal S50000 .f32 := m ((c.tc : Thread nD τ).loc main_arg1)
abbrev x2 (c : Dev nD) : Vec Ideal S150000 .f32 := m ((c.tc : Thread nD τ).loc main_arg2)
abbrev x3 (c : Dev nD) : Vec Ideal S100000 .f32 := m ((c.tc : Thread nD τ).loc main_arg3)
abbrev x4 (c : Dev nD) : Vec Ideal S50000 .i32 := m ((c.tc : Thread nD τ).loc main_arg4)
abbrev x5 (c : Dev nD) : Vec Ideal S2x150000 .i32 := m ((c.tc : Thread nD τ).loc main_arg5)
abbrev x6 (c : Dev nD) : Vec Ideal S3x100000 .i32 := m ((c.tc : Thread nD τ).loc main_arg6)
abbrev x7 (c : Dev nD) : Vec Ideal S3x32 .f32 := m ((c.tc : Thread nD τ).loc main_arg7)
abbrev x8 (c : Dev nD) : Vec Ideal S32 .f32 := m ((c.tc : Thread nD τ).loc main_arg8)

/-- A one-column reshape of a flat array reads row k at (k, 0). -/
theorem col_apply {α : Type} {n : ℕ} (x : (⟨1, ![n]⟩ : Shape).Idx → α) (h : (⟨1, ![n]⟩ : Shape).ShapeCasts ⟨2, ![n, 1]⟩) (k : Fin n) :
    shapeCast (⟨2, ![n, 1]⟩ : Shape) x h (ix2 k (0 : Fin 1)) = x (ix1 k) :=
  shapeCast_apply x h (ix2 k (0 : Fin 1)) (ix1 k) (by
    rw [Shape.rowMajor_val_one, Shape.rowMajor_val_two]
    show k.val = k.val * 1 + 0
    omega)

/-- A one-row reshape of a flat array reads entry s at (0, s). -/
theorem row_apply {α : Type} {n : ℕ} (x : (⟨1, ![n]⟩ : Shape).Idx → α) (h : (⟨1, ![n]⟩ : Shape).ShapeCasts ⟨2, ![1, n]⟩) (s : Fin n) :
    shapeCast (⟨2, ![1, n]⟩ : Shape) x h (ix2 (0 : Fin 1) s) = x (ix1 s) :=
  shapeCast_apply x h (ix2 (0 : Fin 1) s) (ix1 s) (by
    rw [Shape.rowMajor_val_one, Shape.rowMajor_val_two]
    show s.val = 0 * n + s.val
    omega)

/-! ## What the later boundaries still hold of the arguments and of the node heights -/

theorem W2_arg2 (c : Dev nD) : W2 m ρ c (Proc.devRef .tc main_arg2) = m ((c.tc : Thread nD τ).loc main_arg2) :=
  (W2_of_ne m ρ c main_arg2 (by decide)).trans (by
    show StableHlo.after hostOps0 (W0 m ρ c) (Proc.devRef .tc main_arg2) = _
    after_results)
theorem W2_arg3 (c : Dev nD) : W2 m ρ c (Proc.devRef .tc main_arg3) = m ((c.tc : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c.tc : Thread nD τ).loc main_arg6) :=
  (W2_of_ne m ρ c main_arg6 (by decide)).trans (by
    show StableHlo.after hostOps0 (W0 m ρ c) (Proc.devRef .tc main_arg6) = _
    after_results)
theorem W2_arg8 (c : Dev nD) : W2 m ρ c (Proc.devRef .tc main_arg8) = m ((c.tc : Thread nD τ).loc main_arg8) :=
  (W2_of_ne m ρ c main_arg8 (by decide)).trans (by
    show StableHlo.after hostOps0 (W0 m ρ c) (Proc.devRef .tc main_arg8) = _
    after_results)

/-- The node heights as region 0 is entered with them: the reference's own stage. -/
theorem heights0 (c : Dev nD) : (V1 m ρ c main_v3 : Vec Ideal S50000x32 .f32)
    = Cert.ReferenceIdeal.Read.val_main_v3 (F := Ideal) (x0 m c) (x1 m c) (x7 m c) := by
  show StableHlo.after hostOps0 (W0 m ρ c) (Proc.devRef .tc main_v3) = _
  after_results
  rfl

/-- Region 0 reads the node heights and leaves them. -/
theorem W2_v3 (c : Dev nD) : W2 m ρ c (Proc.devRef .tc main_v3) = V1 m ρ c main_v3 :=
  (W2_arr m ρ c 0).trans ((dat0 (V1 m ρ) c).arrAt_in 0 rfl _)

theorem W4_arg3 (c : Dev nD) : W4 m ρ c (Proc.devRef .tc main_arg3) = m ((c.tc : Thread nD τ).loc main_arg3) :=
  (W4_of_ne m ρ c main_arg3 (by decide)).trans ((by
    show StableHlo.after hostOps1 (W2 m ρ c) (Proc.devRef .tc main_arg3) = W2 m ρ c (Proc.devRef .tc main_arg3)
    after_results : W3 m ρ c (Proc.devRef .tc main_arg3) = _).trans (W2_arg3 m ρ c))
theorem W4_arg4 (c : Dev nD) : W4 m ρ c (Proc.devRef .tc main_arg4) = m ((c.tc : Thread nD τ).loc main_arg4) :=
  (W4_of_ne m ρ c main_arg4 (by decide)).trans ((by
    show StableHlo.after hostOps1 (W2 m ρ c) (Proc.devRef .tc main_arg4) = W2 m ρ c (Proc.devRef .tc main_arg4)
    after_results : W3 m ρ c (Proc.devRef .tc main_arg4) = _).trans (W2_arg4 m ρ c))
theorem W4_arg6 (c : Dev nD) : W4 m ρ c (Proc.devRef .tc main_arg6) = m ((c.tc : Thread nD τ).loc main_arg6) :=
  (W4_of_ne m ρ c main_arg6 (by decide)).trans ((by
    show StableHlo.after hostOps1 (W2 m ρ c) (Proc.devRef .tc main_arg6) = W2 m ρ c (Proc.devRef .tc main_arg6)
    after_results : W3 m ρ c (Proc.devRef .tc main_arg6) = _).trans (W2_arg6 m ρ c))
theorem W4_arg8 (c : Dev nD) : W4 m ρ c (Proc.devRef .tc main_arg8) = m ((c.tc : Thread nD τ).loc main_arg8) :=
  (W4_of_ne m ρ c main_arg8 (by decide)).trans ((by
    show StableHlo.after hostOps1 (W2 m ρ c) (Proc.devRef .tc main_arg8) = W2 m ρ c (Proc.devRef .tc main_arg8)
    after_results : W3 m ρ c (Proc.devRef .tc main_arg8) = _).trans (W2_arg8 m ρ c))
theorem W4_v3 (c : Dev nD) : W4 m ρ c (Proc.devRef .tc main_v3) = V1 m ρ c main_v3 :=
  (W4_of_ne m ρ c main_v3 (by decide)).trans ((by
    show StableHlo.after hostOps1 (W2 m ρ c) (Proc.devRef .tc main_v3) = W2 m ρ c (Proc.devRef .tc main_v3)
    after_results : W3 m ρ c (Proc.devRef .tc main_v3) = _).trans (W2_v3 m ρ c))

/-! ## The three arrays each region is entered with -/

theorem words0 (c : Dev nD) (k : Fin 50000) :
    (V1 m ρ c main_v4 : Vec Ideal S50000x1 .i32) (ix2 k (0 : Fin 1)) = x4 m c (ix1 k) := by
  show StableHlo.after hostOps0 (W0 m ρ c) (Proc.devRef .tc main_v4) (ix2 k (0 : Fin 1)) = _
  after_results
  show shapeCast S50000x1 (x4 m c) shapeCasts_S50000_S50000x1 (ix2 k (0 : Fin 1)) = _
  exact col_apply _ _ k

theorem thresholds0 (c : Dev nD) (s : Fin 32) :
    (V1 m ρ c main_v5 : Vec Ideal S1x32 .f32) (ix2 (0 : Fin 1) s) = x8 m c (ix1 s) := by
  show StableHlo.after hostOps0 (W0 m ρ c) (Proc.devRef .tc main_v5) (ix2 (0 : Fin 1) s) = _
  after_results
  show shapeCast S1x32 (x8 m c) shapeCasts_S32_S1x32 (ix2 (0 : Fin 1) s) = _
  exact row_apply _ _ s

theorem heights1 (c : Dev nD) : (V3 m ρ c main_v17 : Vec Ideal S150000x32 .f32)
    = Cert.ReferenceIdeal.Read.val_main_v30 (F := Ideal) (x0 m c) (x1 m c) (x2 m c) (x5 m c) (x7 m c) := by
  show StableHlo.after hostOps1 (W2 m ρ c) (Proc.devRef .tc main_v17) = _
  after_results
  rw [W2_v3, W2_arg5, W2_arg2, heights0]
  rfl

theorem words1 (c : Dev nD) (k : Fin 150000) :
    (V3 m ρ c main_v27 : Vec Ideal S150000x1 .i32) (ix2 k (0 : Fin 1)) = Cert.ReferenceIdeal.Read.val_main_v39 (F := Ideal) (x4 m c) (x5 m c) (ix1 k) := by
  show StableHlo.after hostOps1 (W2 m ρ c) (Proc.devRef .tc main_v27) (ix2 k (0 : Fin 1)) = _
  after_results_simp
  rw [W2_arg4, W2_arg5]
  show shapeCast S150000x1 (Cert.ReferenceIdeal.Read.val_main_v39 (F := Ideal) (x4 m c) (x5 m c)) shapeCasts_S150000_S150000x1 (ix2 k (0 : Fin 1)) = _
  exact col_apply _ _ k

theorem thresholds1 (c : Dev nD) (s : Fin 32) :
    (V3 m ρ c main_v28 : Vec Ideal S1x32 .f32) (ix2 (0 : Fin 1) s) = x8 m c (ix1 s) := by
  show StableHlo.after hostOps1 (W2 m ρ c) (Proc.devRef .tc main_v28) (ix2 (0 : Fin 1) s) = _
  after_results
  rw [W2_arg8]
  show shapeCast S1x32 (x8 m c) shapeCasts_S32_S1x32 (ix2 (0 : Fin 1) s) = _
  exact row_apply _ _ s

theorem heights2 (c : Dev nD) : (V5 m ρ c main_v40 : Vec Ideal S100000x32 .f32)
    = Cert.ReferenceIdeal.Read.val_main_v67 (F := Ideal) (x0 m c) (x1 m c) (x3 m c) (x6 m c) (x7 m c) := by
  show StableHlo.after hostOps2 (W4 m ρ c) (Proc.devRef .tc main_v40) = _
  after_results
  rw [W4_v3, W4_arg6, W4_arg3, heights0]
  rfl

theorem words2 (c : Dev nD) (k : Fin 100000) :
    (V5 m ρ c main_v50 : Vec Ideal S100000x1 .i32) (ix2 k (0 : Fin 1)) = Cert.ReferenceIdeal.Read.val_main_v76 (F := Ideal) (x4 m c) (x6 m c) (ix1 k) := by
  show StableHlo.after hostOps2 (W4 m ρ c) (Proc.devRef .tc main_v50) (ix2 k (0 : Fin 1)) = _
  after_results_simp
  rw [W4_arg4, W4_arg6]
  show shapeCast S100000x1 (Cert.ReferenceIdeal.Read.val_main_v76 (F := Ideal) (x4 m c) (x6 m c)) shapeCasts_S100000_S100000x1 (ix2 k (0 : Fin 1)) = _
  exact col_apply _ _ k

theorem thresholds2 (c : Dev nD) (s : Fin 32) :
    (V5 m ρ c main_v51 : Vec Ideal S1x32 .f32) (ix2 (0 : Fin 1) s) = x8 m c (ix1 s) := by
  show StableHlo.after hostOps2 (W4 m ρ c) (Proc.devRef .tc main_v51) (ix2 (0 : Fin 1) s) = _
  after_results
  rw [W4_arg8]
  show shapeCast S1x32 (x8 m c) shapeCasts_S32_S1x32 (ix2 (0 : Fin 1) s) = _
  exact row_apply _ _ s

/-! ## The result -/

/-- The result buffer at the last boundary, and the three regions' output arrays, at the literal type. -/
abbrev result (c : Dev nD) : FVec Ideal S64x32x32 .f32 := W7 m ρ c (Proc.devRef .tc main_v54)
abbrev nodes (c : Dev nD) : FVec Ideal S64x32x32 .f32 := (dat0 (F := Ideal) (V1 m ρ) c).arrAt 3 cfg0.N
abbrev edges (c : Dev nD) : FVec Ideal S64x32x32 .f32 := (dat1 (F := Ideal) (V3 m ρ) c).arrAt 3 cfg1.N
abbrev faces (c : Dev nD) : FVec Ideal S64x32x32 .f32 := (dat2 (F := Ideal) (V5 m ρ) c).arrAt 3 cfg2.N

/-- Region 2's output at its exit. -/
theorem W6_faces (c : Dev nD) : (W6 m ρ c (Proc.devRef .tc main_v52) : FVec Ideal S64x32x32 .f32) = faces m ρ c :=
  W6_arr m ρ c 3

/-- Region 1's output is untouched by the stretch after it and by region 2. -/
theorem W6_edges (c : Dev nD) : (W6 m ρ c (Proc.devRef .tc main_v29) : FVec Ideal S64x32x32 .f32) = edges m ρ c :=
  (W6_of_ne m ρ c main_v29 (by decide)).trans ((by
    show StableHlo.after hostOps2 (W4 m ρ c) (Proc.devRef .tc main_v29) = W4 m ρ c (Proc.devRef .tc main_v29)
    after_results : W5 m ρ c (Proc.devRef .tc main_v29) = _).trans (W4_arr m ρ c 3))

/-- Region 0's output is untouched by everything after it. -/
theorem W6_nodes (c : Dev nD) : (W6 m ρ c (Proc.devRef .tc main_v6) : FVec Ideal S64x32x32 .f32) = nodes m ρ c :=
  (W6_of_ne m ρ c main_v6 (by decide)).trans ((by
    show StableHlo.after hostOps2 (W4 m ρ c) (Proc.devRef .tc main_v6) = W4 m ρ c (Proc.devRef .tc main_v6)
    after_results : W5 m ρ c (Proc.devRef .tc main_v6) = _).trans ((W4_of_ne m ρ c main_v6 (by decide)).trans ((by
      show StableHlo.after hostOps1 (W2 m ρ c) (Proc.devRef .tc main_v6) = W2 m ρ c (Proc.devRef .tc main_v6)
      after_results : W3 m ρ c (Proc.devRef .tc main_v6) = _).trans (W2_arr m ρ c 3))))

/-- The last stretch: nodes minus edges plus faces. -/
theorem result_eq (c : Dev nD) : result m ρ c = addf (subf (nodes m ρ c) (edges m ρ c)) (faces m ρ c) := by
  show StableHlo.after hostOps3 (W6 m ρ c) (Proc.devRef .tc main_v54) = _
  after_results
  rw [W6_nodes, W6_edges, W6_faces]

/-- Segment sums of equal heights, words and thresholds are equal. -/
theorem segEcc_congr {M : ℕ} {h h' : Fin M → Fin 32 → EReal} {idx idx' : Fin M → BitVec 32} {lin lin' : Fin 32 → EReal}
    (hh : ∀ k t, h k t = h' k t) (hi : ∀ k, idx k = idx' k) (hl : ∀ s, lin s = lin' s) (b : Fin 64) (s t : Fin 32) :
    Cert.Ecc.segEcc h idx lin b s t = Cert.Ecc.segEcc h' idx' lin' b s t := by
  obtain rfl : h = h' := funext fun k => funext fun t => hh k t
  obtain rfl : idx = idx' := funext hi
  obtain rfl : lin = lin' := funext hl
  rfl

/-- Entry (b, s, t) of the kernel program's result: the node segment sum minus the edge segment sum plus the face segment
    sum, over the reference's own heights and words. -/
theorem result_apply (c : Dev nD) (b : Fin 64) (s t : Fin 32) :
    result m ρ c (ix3 b s t)
      = (Cert.Ecc.segEcc (M := 50000) (fun k t' => Cert.ReferenceIdeal.Read.val_main_v3 (F := Ideal) (x0 m c) (x1 m c) (x7 m c) (ix2 k t')) (fun k => x4 m c (ix1 k)) (fun s' => x8 m c (ix1 s')) b s t
          - Cert.Ecc.segEcc (M := 150000) (fun k t' => Cert.ReferenceIdeal.Read.val_main_v30 (F := Ideal) (x0 m c) (x1 m c) (x2 m c) (x5 m c) (x7 m c) (ix2 k t')) (fun k => Cert.ReferenceIdeal.Read.val_main_v39 (F := Ideal) (x4 m c) (x5 m c) (ix1 k)) (fun s' => x8 m c (ix1 s')) b s t)
        + Cert.Ecc.segEcc (M := 100000) (fun k t' => Cert.ReferenceIdeal.Read.val_main_v67 (F := Ideal) (x0 m c) (x1 m c) (x3 m c) (x6 m c) (x7 m c) (ix2 k t')) (fun k => Cert.ReferenceIdeal.Read.val_main_v76 (F := Ideal) (x4 m c) (x6 m c) (ix1 k)) (fun s' => x8 m c (ix1 s')) b s t := by
  rw [result_eq]
  show (nodes m ρ c (ix3 b s t) - edges m ρ c (ix3 b s t)) + faces m ρ c (ix3 b s t) = _
  have e0 : nodes m ρ c = Cert.KernelIdeal.Region0.seg (V1 m ρ) c := Cert.KernelIdeal.Region0.final (V1 m ρ) c
  have e1 : edges m ρ c = Cert.KernelIdeal.Region1.seg (V3 m ρ) c := Cert.KernelIdeal.Region1.final (V3 m ρ) c
  have e2 : faces m ρ c = Cert.KernelIdeal.Region2.seg (V5 m ρ) c := Cert.KernelIdeal.Region2.final (V5 m ρ) c
  rw [e0, e1, e2]
  refine congrArg₂ (· + ·) (congrArg₂ (· - ·) ?_ ?_) ?_
  · exact segEcc_congr (fun k t' => congrFun (heights0 m ρ c) (ix2 k t')) (words0 m ρ c) (thresholds0 m ρ c) b s t
  · exact segEcc_congr (fun k t' => congrFun (heights1 m ρ c) (ix2 k t')) (words1 m ρ c) (thresholds1 m ρ c) b s t
  · exact segEcc_congr (fun k t' => congrFun (heights2 m ρ c) (ix2 k t')) (words2 m ρ c) (thresholds2 m ρ c) b s t

end Cert.KernelIdeal.KValue

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatter3.lean ====
/-
  The accumulating scatter of [e x f x g] update slabs into an [n x f x g] array by an [e x 1] column of row words,
  read at one element: the array's element plus the same (f, g) position of every update slab whose word, read signed,
  names that row.
-/
import proofs.«429715_j15942918603129_1_alg».proof.Proof.LibIndexMaps
import Idealize.ShloMosaic.PureOps.Contract

noncomputable section

namespace Cert.LibScatter3

open Idealize.ShloMosaic Idealize.ShloMosaic.ValueIdx
open scoped BigOperators

open Cert.Gcn.IndexMaps (mem_kept)

/-! ## Axes and coordinates of a rank-3 index -/

/-- A position on an axis of three places is the first, the second or the third. -/
theorem fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- A coordinate of a rank-3 index on the axis numbered 0 is its first coordinate. -/
theorem coord3_of_val0 {e f g : ℕ} (j : (⟨3, ![e, f, g]⟩ : Shape).Idx) (X : Fin 3) (hX : X.val = 0) :
    (j X).val = (j 0).val := by
  have : X = 0 := Fin.ext hX
  subst this; rfl

/-- A coordinate of a rank-3 index on the axis numbered 1 is its second coordinate. -/
theorem coord3_of_val1 {e f g : ℕ} (j : (⟨3, ![e, f, g]⟩ : Shape).Idx) (X : Fin 3) (hX : X.val = 1) :
    (j X).val = (j 1).val := by
  have : X = 1 := Fin.ext hX
  subst this; rfl

/-- A coordinate of a rank-3 index on the axis numbered 2 is its third coordinate. -/
theorem coord3_of_val2 {e f g : ℕ} (j : (⟨3, ![e, f, g]⟩ : Shape).Idx) (X : Fin 3) (hX : X.val = 2) :
    (j X).val = (j 2).val := by
  have : X = 2 := Fin.ext hX
  subst this; rfl

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (F : (⟨3, ![n0, n1, n2]⟩ : Shape).Idx → M) :
    ∑ i, F i = ∑ a : Fin n0, ∑ b : Fin n1, ∑ c : Fin n2, F (ix3 a b c) := by
  rw [← Equiv.sum_comp (idxEquiv3 (n0 := n0) (n1 := n1) (n2 := n2)).symm F, Fintype.sum_prod_type]
  refine Finset.sum_congr rfl (fun a _ => ?_)
  rw [Fintype.sum_prod_type]
  rfl

/-- The entries of a list of two, by position. -/
theorem getElem_pair {α : Type*} (l : List α) (x y : α) (hl : l = [x, y]) (k : ℕ) (hk : k < l.length) :
    (k = 0 → l[k] = x) ∧ (k = 1 → l[k] = y) := by
  subst hl
  constructor
  · rintro rfl; rfl
  · rintro rfl; rfl

/-! ## The scatter of [e × f × g] updates into an [n × f × g] operand -/

/-- Update (p, a, b) reads its one start-index component at (p, 0). -/
theorem scatter3_siIdx {n f g e : ℕ} (d : ScatterDims ⟨3, ![n, f, g]⟩ ⟨2, ![e, 1]⟩ ⟨3, ![e, f, g]⟩)
    (huw : d.updateWindowDims = [1, 2]) (hivd : d.indexVectorDim = 1) (j : (⟨3, ![e, f, g]⟩ : Shape).Idx)
    (c : Fin d.scatterDimsToOperandDims.length) :
    d.siIdx j c = ix2 (n0 := e) (n1 := 1) (j 0) 0 := by
  have hus : ∀ x ∈ d.uScatter, x.val = 0 := by
    intro x hx
    rw [ScatterDims.uScatter, mem_kept, huw] at hx
    rcases fin3_cases x with rfl | rfl | rfl
    · rfl
    · exact absurd (by simp) hx
    · exact absurd (by simp) hx
  funext b
  match b with
  | ⟨0, _⟩ =>
    unfold ScatterDims.siIdx
    rw [dif_neg (by rw [hivd]; simp)]
    unfold ScatterDims.siCoord
    apply Fin.ext
    simp only [Fin.val_cast]
    exact coord3_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- [n × f × g] operand, [e × 1] scatter indices, [e × f × g] updates, the second and third axes window axes:
    update (p, a, b) lands on element (r, a', b') exactly when the index word at (p, 0), read signed, is r
    and a = a', b = b'. -/
theorem scatter3_resultIdx_iff {n f g e w : ℕ} (d : ScatterDims ⟨3, ![n, f, g]⟩ ⟨2, ![e, 1]⟩ ⟨3, ![e, f, g]⟩)
    (huw : d.updateWindowDims = [1, 2]) (hiw : d.insertedWindowDims = [0])
    (hsd : d.scatterDimsToOperandDims = [0]) (hivd : d.indexVectorDim = 1)
    (idx : IVec ⟨2, ![e, 1]⟩ w) (j : (⟨3, ![e, f, g]⟩ : Shape).Idx) (i : (⟨3, ![n, f, g]⟩ : Shape).Idx) :
    d.resultIdx? j idx = some i ↔
      (idx (ix2 (j 0) (0 : Fin 1))).toInt = (((i 0).val : ℕ) : Int) ∧ (j 1).val = (i 1).val ∧ (j 2).val = (i 2).val := by
  have hm0 : (0 : Fin 3) ∈ d.scatterDimsToOperandDims := by rw [hsd]; exact List.mem_singleton.mpr rfl
  have hm1 : (1 : Fin 3) ∉ d.scatterDimsToOperandDims := by rw [hsd]; simp
  have hm2 : (2 : Fin 3) ∉ d.scatterDimsToOperandDims := by rw [hsd]; simp
  have hk0 : (0 : Fin 3) ∉ d.sKept := by rw [ScatterDims.sKept, mem_kept, hiw]; simp
  have hk1 : (1 : Fin 3) ∈ d.sKept := by rw [ScatterDims.sKept, mem_kept, hiw]; simp
  have hk2 : (2 : Fin 3) ∈ d.sKept := by rw [ScatterDims.sKept, mem_kept, hiw]; simp
  have hsk : d.sKept = [1, 2] := by rw [ScatterDims.sKept, hiw]; rfl
  have hs0 : d.start j idx 0 = (idx (ix2 (j 0) (0 : Fin 1))).toInt := by
    unfold ScatterDims.start
    rw [dif_pos hm0, scatter3_siIdx d huw hivd]
  have hs1 : d.start j idx 1 = 0 := by
    unfold ScatterDims.start
    rw [dif_neg hm1]
  have hs2 : d.start j idx 2 = 0 := by
    unfold ScatterDims.start
    rw [dif_neg hm2]
  have hw0 : d.window j 0 = 0 := by
    unfold ScatterDims.window
    rw [dif_neg hk0]
  have hw1 : d.window j 1 = (j 1).val := by
    unfold ScatterDims.window
    rw [dif_pos hk1]
    refine coord3_of_val1 j _ ?_
    have hi : List.idxOf (1 : Fin 3) d.sKept = 0 := by rw [hsk]; rfl
    exact congrArg Fin.val ((getElem_pair _ _ _ huw _ _).1 hi)
  have hw2 : d.window j 2 = (j 2).val := by
    unfold ScatterDims.window
    rw [dif_pos hk2]
    refine coord3_of_val2 j _ ?_
    have hi : List.idxOf (2 : Fin 3) d.sKept = 1 := by rw [hsk]; rfl
    exact congrArg Fin.val ((getElem_pair _ _ _ huw _ _).2 hi)
  have hlt0 : (i 0).val < n := (i 0).isLt
  have hlt1 : (i 1).val < f := (i 1).isLt
  have hlt2 : (i 2).val < g := (i 2).isLt
  have hjlt1 : (j 1).val < f := (j 1).isLt
  have hjlt2 : (j 2).val < g := (j 2).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      have hv2 := congrArg Fin.val (congrFun hf 2)
      simp only [hs0, hw0] at hv0
      simp only [hs1, hw1] at hv1
      simp only [hs2, hw2] at hv2
      refine ⟨?_, ?_, ?_⟩ <;> omega
    · rintro ⟨he, hc1, hc2⟩
      funext a
      rcases fin3_cases a with rfl | rfl | rfl
      · apply Fin.ext
        simp only [hs0, hw0]
        omega
      · apply Fin.ext
        simp only [hs1, hw1]
        omega
      · apply Fin.ext
        simp only [hs2, hw2]
        omega
  · constructor
    · intro hh; cases hh
    · rintro ⟨he, hc1, hc2⟩
      exfalso
      apply h
      intro a
      rcases fin3_cases a with rfl | rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega
      · rw [hs2, hw2]
        show (0 : Int) ≤ 0 + (((j 2).val : ℕ) : Int) ∧ (0 : Int) + (((j 2).val : ℕ) : Int) < (g : ℕ)
        omega

/-- The same, by coordinates. -/
theorem scatter3_resultIdx_ix_iff {n f g e w : ℕ} (d : ScatterDims ⟨3, ![n, f, g]⟩ ⟨2, ![e, 1]⟩ ⟨3, ![e, f, g]⟩)
    (huw : d.updateWindowDims = [1, 2]) (hiw : d.insertedWindowDims = [0])
    (hsd : d.scatterDimsToOperandDims = [0]) (hivd : d.indexVectorDim = 1)
    (idx : IVec ⟨2, ![e, 1]⟩ w) (p : Fin e) (a : Fin f) (b : Fin g) (r : Fin n) (a' : Fin f) (b' : Fin g) :
    d.resultIdx? (ix3 p a b) idx = some (ix3 r a' b') ↔
      (idx (ix2 p (0 : Fin 1))).toInt = ((r.val : ℕ) : Int) ∧ a = a' ∧ b = b' := by
  rw [scatter3_resultIdx_iff d huw hiw hsd hivd idx (ix3 p a b) (ix3 r a' b')]
  exact and_congr Iff.rfl (and_congr Fin.val_inj Fin.val_inj)

theorem scatterAdd3_apply {φ : FTy} {n f g e w : ℕ} (d : ScatterDims ⟨3, ![n, f, g]⟩ ⟨2, ![e, 1]⟩ ⟨3, ![e, f, g]⟩)
    (huw : d.updateWindowDims = [1, 2]) (hiw : d.insertedWindowDims = [0])
    (hsd : d.scatterDimsToOperandDims = [0]) (hivd : d.indexVectorDim = 1)
    (x : FVec Ideal ⟨3, ![n, f, g]⟩ φ) (idx : IVec ⟨2, ![e, 1]⟩ w) (upd : FVec Ideal ⟨3, ![e, f, g]⟩ φ)
    (r : Fin n) (a : Fin f) (b : Fin g) :
    Host.scatterAdd (F := Ideal) d x idx upd (ix3 r a b)
      = x (ix3 r a b) + ∑ p : Fin e, if (idx (ix2 p (0 : Fin 1))).toInt = ((r.val : ℕ) : Int) then upd (ix3 p a b) else 0 := by
  show Ideal.hostScatterAdd d x idx upd (ix3 r a b) = _
  unfold Ideal.hostScatterAdd
  congr 1
  rw [Finset.sum_filter, sum_idx3]
  refine Finset.sum_congr rfl (fun p _ => ?_)
  simp only [scatter3_resultIdx_ix_iff d huw hiw hsd hivd]
  by_cases hT : (idx (ix2 p (0 : Fin 1))).toInt = ((r.val : ℕ) : Int)
  · simp only [hT, true_and, if_true]
    rw [Finset.sum_eq_single a]
    · rw [Finset.sum_eq_single b]
      · simp
      · intro c _ hc
        simp [hc]
      · intro h; exact absurd (Finset.mem_univ _) h
    · intro c _ hc
      simp [hc]
    · intro h; exact absurd (Finset.mem_univ _) h
  · simp only [hT, false_and, if_false]
    simp

end Cert.LibScatter3

end
-- ==== Proof.RefSegment.lean ====
/-
  One segment of the reference, read at one entry.

  The reference spells the sigmoid as 1 / (1 + exp (-(500 * (L - H)))): at the extended reals that is the logistic
  function of 500 * (L - H), the bump. It then adds each simplex's [32 x 32] slab of bumps into the row of a zero
  [64 x 32 x 32] array that the simplex's graph word names, dropping a word that names no row. Entry (b, s, t) of the result
  is therefore the sum of the bumps at (s, t) of the simplices whose word is b: the segment sum.
-/
import proofs.«429715_j15942918603129_1_alg».proof.Proof.Spec
import proofs.«429715_j15942918603129_1_alg».proof.Proof.LibScatter3
import Idealize.ShloMosaic.Lib.ValueIdx
import Idealize.ShloMosaic.PureOps.Ideal.Laws
import Idealize.ShloMosaic.Lib.IdealHost

noncomputable section

namespace Cert.RefSegment

open Idealize.ShloMosaic Idealize.ShloMosaic.ValueIdx
open scoped BigOperators

/-- The four host operations of the sigmoid, at one index: the bump of the two operands there. -/
theorem sigmoid_apply {S : Shape} (one one' c500 L H : FVec Ideal S .f32) (i : S.Idx)
    (h1 : one i = Ideal.ofBits .f32 0x3F800000#32) (h1' : one' i = Ideal.ofBits .f32 0x3F800000#32)
    (h500 : c500 i = Ideal.ofBits .f32 0x43FA0000#32) :
    Host.divf one (addf one' (Host.exp (Host.negf (mulf c500 (subf L H))))) i = Cert.Ecc.bump (L i) (H i) := by
  -- each of the five operations acts at the index alone: the quotient of one by one plus the exponential of the negated product
  show Ideal.div (one i) (one' i + Ideal.exp (-(c500 i * (L i - H i)))) = Cert.Ecc.bump (L i) (H i)
  -- the two constants are the real one, the third the factor of the bump; what is left is the logistic function's definition
  rw [h1, h1', h500, Ideal.ofBits_one_f32]
  rfl

/-- A signed 32-bit word is the row number b < 64 exactly when it is the word of b. -/
theorem toInt_eq_iff (w : BitVec 32) (b : Fin 64) : w.toInt = ((b.val : ℕ) : Int) ↔ w = BitVec.ofNat 32 b.val := by
  have hb := b.isLt
  have hw := w.isLt
  -- the signed reading is the unsigned one below 2^31 and the unsigned one minus 2^32 from there on
  rw [BitVec.toInt_eq_toNat_cond]
  constructor
  · -- a signed reading in [0, 64) is not negative, so it is the unsigned reading, and words with equal readings are equal
    intro h
    apply BitVec.eq_of_toNat_eq
    rw [BitVec.toNat_ofNat]
    split_ifs at h <;> omega
  · -- the word of b < 64 reads b unsigned, which is below 2^31, so it reads b signed too
    rintro rfl
    rw [BitVec.toNat_ofNat]
    split_ifs <;> omega

/-- The accumulating scatter of slabs of bumps into a zero array, at entry (b, s, t): the segment sum. -/
theorem segment_apply {M : ℕ} (d : ScatterDims ⟨3, ![64, 32, 32]⟩ ⟨2, ![M, 1]⟩ ⟨3, ![M, 32, 32]⟩)
    (huw : d.updateWindowDims = [1, 2]) (hiw : d.insertedWindowDims = [0])
    (hsd : d.scatterDimsToOperandDims = [0]) (hivd : d.indexVectorDim = 1)
    (z : FVec Ideal ⟨3, ![64, 32, 32]⟩ .f32) (hz : ∀ j, z j = 0)
    (idx : IVec ⟨2, ![M, 1]⟩ 32) (upd : FVec Ideal ⟨3, ![M, 32, 32]⟩ .f32)
    (h : Fin M → Fin 32 → EReal) (lin : Fin 32 → EReal)
    (hupd : ∀ (m : Fin M) (s t : Fin 32), upd (ix3 m s t) = Cert.Ecc.bump (lin s) (h m t))
    (b : Fin 64) (s t : Fin 32) :
    Host.scatterAdd (F := Ideal) d z idx upd (ix3 b s t)
      = Cert.Ecc.segEcc h (fun m => idx (ix2 m (0 : Fin 1))) lin b s t := by
  -- the scatter at (b, s, t): the array's entry, which is zero, plus the (s, t) entries of the slabs whose word reads b
  rw [Cert.LibScatter3.scatterAdd3_apply d huw hiw hsd hivd z idx upd b s t, hz, zero_add]
  unfold Cert.Ecc.segEcc
  refine Finset.sum_congr rfl fun p _ => ?_
  rw [hupd]
  -- a slab's entry is a bump; the word reads b signed exactly when it is the word of b, and then the weight is 1, else 0
  by_cases hp : idx (ix2 p (0 : Fin 1)) = BitVec.ofNat 32 b.val
  · rw [if_pos ((toInt_eq_iff _ _).mpr hp), if_pos hp, one_mul]
  · rw [if_neg (fun hq => hp ((toInt_eq_iff _ _).mp hq)), if_neg hp, zero_mul]

end Cert.RefSegment

end
-- ==== Proof.RefValue.lean ====
/-
  The reference's result, read at one entry: the node segment sum minus the edge segment sum plus the face segment sum,
  each over its own heights and graph words and the shared thresholds. The heights and words are the reference's own
  earlier stages, left unopened.
-/
import proofs.«429715_j15942918603129_1_alg».proof.Proof.Spec
import proofs.«429715_j15942918603129_1_alg».proof.Proof.RefSegment
import proofs.«429715_j15942918603129_1_alg».proof.Proof.Gen.ReferenceIdeal.Read

noncomputable section

namespace Cert.ReferenceIdeal.RefValue

open Idealize.ShloMosaic Idealize.ShloMosaic.ValueIdx Cert.ReferenceIdeal Cert.ReferenceIdeal.Read
open scoped BigOperators

/-- The node segment: heights the projected weighted coordinates, words the batch words. -/
theorem seg_nodes (x0 : (⟨S50000x3, .f32⟩ : BufTy).Contents (Elt Ideal)) (x1 : (⟨S50000, .f32⟩ : BufTy).Contents (Elt Ideal)) (x4 : (⟨S50000, .i32⟩ : BufTy).Contents (Elt Ideal)) (x7 : (⟨S3x32, .f32⟩ : BufTy).Contents (Elt Ideal)) (x8 : (⟨S32, .f32⟩ : BufTy).Contents (Elt Ideal)) (b : Fin 64) (s t : Fin 32) :
    val_main_v19 (F := Ideal) x0 x1 x4 x7 x8 (ix3 b s t)
      = Cert.Ecc.segEcc (M := 50000) (fun m t' => val_main_v3 (F := Ideal) x0 x1 x7 (ix2 m t')) (fun m => x4 (ix1 m)) (fun s' => x8 (ix1 s')) b s t := by
  -- the array added into is zero everywhere
  have hz : ∀ j, val_main_v17 (F := Ideal) j = 0 := by
    intro j
    rw [val_main_v17_apply, val_main_cst_2_apply, Ideal.ofBits_def, Ideal.ofBits_zero_f32]
  -- the slab of simplex m holds, at (s, t), the bump of threshold s against the height of m along t
  have hupd : ∀ (m : Fin 50000) (s t : Fin 32),
      val_main_v16 (F := Ideal) x0 x1 x7 x8 (ix3 m s t)
        = Cert.Ecc.bump (x8 (ix1 s)) (val_main_v3 (F := Ideal) x0 x1 x7 (ix2 m t)) := by
    intro m s t
    have h1 : val_main_v15 (F := Ideal) (ix3 m s t) = Ideal.ofBits .f32 0x3F800000#32 := by
      rw [val_main_v15_apply, val_main_cst_1_apply, Ideal.ofBits_def]
    have h1' : val_main_v13 (F := Ideal) (ix3 m s t) = Ideal.ofBits .f32 0x3F800000#32 := by
      rw [val_main_v13_apply, val_main_cst_0_apply, Ideal.ofBits_def]
    have h500 : val_main_v9 (F := Ideal) (ix3 m s t) = Ideal.ofBits .f32 0x43FA0000#32 := by
      rw [val_main_v9_apply, val_main_cst_apply, Ideal.ofBits_def]
    -- the threshold operand: the thresholds spread along the middle axis
    have hLi : idx_main_v4 (idx_main_v6 (ix3 m s t)) = ix1 s := by
      funext a
      match a with
      | ⟨0, _⟩ => rfl
    have hL : val_main_v6 (F := Ideal) x8 (ix3 m s t) = x8 (ix1 s) := by
      rw [val_main_v6_apply, val_main_v4_apply, hLi]
    -- the height operand: the heights spread along the first and last axes
    have hHi : idx_main_v5 (idx_main_v7 (ix3 m s t)) = ix2 m t := by
      funext a
      match a with
      | ⟨0, _⟩ => rfl
      | ⟨1, _⟩ => rfl
    have hH : val_main_v7 (F := Ideal) x0 x1 x7 (ix3 m s t) = val_main_v3 (F := Ideal) x0 x1 x7 (ix2 m t) := by
      rw [val_main_v7_apply, val_main_v5_apply, hHi]
    have hsig := Cert.RefSegment.sigmoid_apply (val_main_v15 (F := Ideal)) (val_main_v13 (F := Ideal)) (val_main_v9 (F := Ideal))
      (val_main_v6 (F := Ideal) x8) (val_main_v7 (F := Ideal) x0 x1 x7) (ix3 m s t) h1 h1' h500
    rw [hL, hH] at hsig
    exact hsig
  -- the word of simplex m, read through the added unit axis
  have hw : (fun m : Fin 50000 => val_main_v18 (F := Ideal) x4 (ix2 m (0 : Fin 1))) = fun m => x4 (ix1 m) := by
    funext m
    have hi : idx_main_v18 (ix2 m (0 : Fin 1)) = ix1 m := by
      funext a
      match a with
      | ⟨0, _⟩ => rfl
    rw [val_main_v18_apply, hi]
  have hseg := Cert.RefSegment.segment_apply (M := 50000) scatter_S64x32x32_S50000x1_S50000x32x32_12_0_0_1 rfl rfl rfl rfl
    (val_main_v17 (F := Ideal)) hz (val_main_v18 (F := Ideal) x4) (val_main_v16 (F := Ideal) x0 x1 x7 x8)
    (fun m t' => val_main_v3 (F := Ideal) x0 x1 x7 (ix2 m t')) (fun s' => x8 (ix1 s')) hupd b s t
  rw [hw] at hseg
  exact hseg

/-- The edge segment: heights the weighted endpoint maxima, words the first endpoint's batch word. -/
theorem seg_edges (x0 : (⟨S50000x3, .f32⟩ : BufTy).Contents (Elt Ideal)) (x1 : (⟨S50000, .f32⟩ : BufTy).Contents (Elt Ideal)) (x2 : (⟨S150000, .f32⟩ : BufTy).Contents (Elt Ideal)) (x4 : (⟨S50000, .i32⟩ : BufTy).Contents (Elt Ideal)) (x5 : (⟨S2x150000, .i32⟩ : BufTy).Contents (Elt Ideal)) (x7 : (⟨S3x32, .f32⟩ : BufTy).Contents (Elt Ideal)) (x8 : (⟨S32, .f32⟩ : BufTy).Contents (Elt Ideal)) (b : Fin 64) (s t : Fin 32) :
    val_main_v55 (F := Ideal) x0 x1 x2 x4 x5 x7 x8 (ix3 b s t)
      = Cert.Ecc.segEcc (M := 150000) (fun m t' => val_main_v30 (F := Ideal) x0 x1 x2 x5 x7 (ix2 m t')) (fun m => val_main_v39 (F := Ideal) x4 x5 (ix1 m)) (fun s' => x8 (ix1 s')) b s t := by
  -- the array added into is zero everywhere
  have hz : ∀ j, val_main_v53 (F := Ideal) j = 0 := by
    intro j
    rw [val_main_v53_apply, val_main_cst_10_apply, Ideal.ofBits_def, Ideal.ofBits_zero_f32]
  -- the slab of simplex m holds, at (s, t), the bump of threshold s against the height of m along t
  have hupd : ∀ (m : Fin 150000) (s t : Fin 32),
      val_main_v52 (F := Ideal) x0 x1 x2 x5 x7 x8 (ix3 m s t)
        = Cert.Ecc.bump (x8 (ix1 s)) (val_main_v30 (F := Ideal) x0 x1 x2 x5 x7 (ix2 m t)) := by
    intro m s t
    have h1 : val_main_v51 (F := Ideal) (ix3 m s t) = Ideal.ofBits .f32 0x3F800000#32 := by
      rw [val_main_v51_apply, val_main_cst_9_apply, Ideal.ofBits_def]
    have h1' : val_main_v49 (F := Ideal) (ix3 m s t) = Ideal.ofBits .f32 0x3F800000#32 := by
      rw [val_main_v49_apply, val_main_cst_8_apply, Ideal.ofBits_def]
    have h500 : val_main_v45 (F := Ideal) (ix3 m s t) = Ideal.ofBits .f32 0x43FA0000#32 := by
      rw [val_main_v45_apply, val_main_cst_7_apply, Ideal.ofBits_def]
    -- the threshold operand: the thresholds spread along the middle axis
    have hLi : idx_main_v40 (idx_main_v42 (ix3 m s t)) = ix1 s := by
      funext a
      match a with
      | ⟨0, _⟩ => rfl
    have hL : val_main_v42 (F := Ideal) x8 (ix3 m s t) = x8 (ix1 s) := by
      rw [val_main_v42_apply, val_main_v40_apply, hLi]
    -- the height operand: the heights spread along the first and last axes
    have hHi : idx_main_v41 (idx_main_v43 (ix3 m s t)) = ix2 m t := by
      funext a
      match a with
      | ⟨0, _⟩ => rfl
      | ⟨1, _⟩ => rfl
    have hH : val_main_v43 (F := Ideal) x0 x1 x2 x5 x7 (ix3 m s t) = val_main_v30 (F := Ideal) x0 x1 x2 x5 x7 (ix2 m t) := by
      rw [val_main_v43_apply, val_main_v41_apply, hHi]
    have hsig := Cert.RefSegment.sigmoid_apply (val_main_v51 (F := Ideal)) (val_main_v49 (F := Ideal)) (val_main_v45 (F := Ideal))
      (val_main_v42 (F := Ideal) x8) (val_main_v43 (F := Ideal) x0 x1 x2 x5 x7) (ix3 m s t) h1 h1' h500
    rw [hL, hH] at hsig
    exact hsig
  -- the word of simplex m, read through the added unit axis
  have hw : (fun m : Fin 150000 => val_main_v54 (F := Ideal) x4 x5 (ix2 m (0 : Fin 1))) = fun m => val_main_v39 (F := Ideal) x4 x5 (ix1 m) := by
    funext m
    have hi : idx_main_v54 (ix2 m (0 : Fin 1)) = ix1 m := by
      funext a
      match a with
      | ⟨0, _⟩ => rfl
    rw [val_main_v54_apply, hi]
  have hseg := Cert.RefSegment.segment_apply (M := 150000) scatter_S64x32x32_S150000x1_S150000x32x32_12_0_0_1 rfl rfl rfl rfl
    (val_main_v53 (F := Ideal)) hz (val_main_v54 (F := Ideal) x4 x5) (val_main_v52 (F := Ideal) x0 x1 x2 x5 x7 x8)
    (fun m t' => val_main_v30 (F := Ideal) x0 x1 x2 x5 x7 (ix2 m t')) (fun s' => x8 (ix1 s')) hupd b s t
  rw [hw] at hseg
  exact hseg

/-- The face segment: heights the weighted vertex maxima, words the first vertex's batch word. -/
theorem seg_faces (x0 : (⟨S50000x3, .f32⟩ : BufTy).Contents (Elt Ideal)) (x1 : (⟨S50000, .f32⟩ : BufTy).Contents (Elt Ideal)) (x3 : (⟨S100000, .f32⟩ : BufTy).Contents (Elt Ideal)) (x4 : (⟨S50000, .i32⟩ : BufTy).Contents (Elt Ideal)) (x6 : (⟨S3x100000, .i32⟩ : BufTy).Contents (Elt Ideal)) (x7 : (⟨S3x32, .f32⟩ : BufTy).Contents (Elt Ideal)) (x8 : (⟨S32, .f32⟩ : BufTy).Contents (Elt Ideal)) (b : Fin 64) (s t : Fin 32) :
    val_main_v92 (F := Ideal) x0 x1 x3 x4 x6 x7 x8 (ix3 b s t)
      = Cert.Ecc.segEcc (M := 100000) (fun m t' => val_main_v67 (F := Ideal) x0 x1 x3 x6 x7 (ix2 m t')) (fun m => val_main_v76 (F := Ideal) x4 x6 (ix1 m)) (fun s' => x8 (ix1 s')) b s t := by
  -- the array added into is zero everywhere
  have hz : ∀ j, val_main_v90 (F := Ideal) j = 0 := by
    intro j
    rw [val_main_v90_apply, val_main_cst_19_apply, Ideal.ofBits_def, Ideal.ofBits_zero_f32]
  -- the slab of simplex m holds, at (s, t), the bump of threshold s against the height of m along t
  have hupd : ∀ (m : Fin 100000) (s t : Fin 32),
      val_main_v89 (F := Ideal) x0 x1 x3 x6 x7 x8 (ix3 m s t)
        = Cert.Ecc.bump (x8 (ix1 s)) (val_main_v67 (F := Ideal) x0 x1 x3 x6 x7 (ix2 m t)) := by
    intro m s t
    have h1 : val_main_v88 (F := Ideal) (ix3 m s t) = Ideal.ofBits .f32 0x3F800000#32 := by
      rw [val_main_v88_apply, val_main_cst_18_apply, Ideal.ofBits_def]
    have h1' : val_main_v86 (F := Ideal) (ix3 m s t) = Ideal.ofBits .f32 0x3F800000#32 := by
      rw [val_main_v86_apply, val_main_cst_17_apply, Ideal.ofBits_def]
    have h500 : val_main_v82 (F := Ideal) (ix3 m s t) = Ideal.ofBits .f32 0x43FA0000#32 := by
      rw [val_main_v82_apply, val_main_cst_16_apply, Ideal.ofBits_def]
    -- the threshold operand: the thresholds spread along the middle axis
    have hLi : idx_main_v77 (idx_main_v79 (ix3 m s t)) = ix1 s := by
      funext a
      match a with
      | ⟨0, _⟩ => rfl
    have hL : val_main_v79 (F := Ideal) x8 (ix3 m s t) = x8 (ix1 s) := by
      rw [val_main_v79_apply, val_main_v77_apply, hLi]
    -- the height operand: the heights spread along the first and last axes
    have hHi : idx_main_v78 (idx_main_v80 (ix3 m s t)) = ix2 m t := by
      funext a
      match a with
      | ⟨0, _⟩ => rfl
      | ⟨1, _⟩ => rfl
    have hH : val_main_v80 (F := Ideal) x0 x1 x3 x6 x7 (ix3 m s t) = val_main_v67 (F := Ideal) x0 x1 x3 x6 x7 (ix2 m t) := by
      rw [val_main_v80_apply, val_main_v78_apply, hHi]
    have hsig := Cert.RefSegment.sigmoid_apply (val_main_v88 (F := Ideal)) (val_main_v86 (F := Ideal)) (val_main_v82 (F := Ideal))
      (val_main_v79 (F := Ideal) x8) (val_main_v80 (F := Ideal) x0 x1 x3 x6 x7) (ix3 m s t) h1 h1' h500
    rw [hL, hH] at hsig
    exact hsig
  -- the word of simplex m, read through the added unit axis
  have hw : (fun m : Fin 100000 => val_main_v91 (F := Ideal) x4 x6 (ix2 m (0 : Fin 1))) = fun m => val_main_v76 (F := Ideal) x4 x6 (ix1 m) := by
    funext m
    have hi : idx_main_v91 (ix2 m (0 : Fin 1)) = ix1 m := by
      funext a
      match a with
      | ⟨0, _⟩ => rfl
    rw [val_main_v91_apply, hi]
  have hseg := Cert.RefSegment.segment_apply (M := 100000) scatter_S64x32x32_S100000x1_S100000x32x32_12_0_0_1 rfl rfl rfl rfl
    (val_main_v90 (F := Ideal)) hz (val_main_v91 (F := Ideal) x4 x6) (val_main_v89 (F := Ideal) x0 x1 x3 x6 x7 x8)
    (fun m t' => val_main_v67 (F := Ideal) x0 x1 x3 x6 x7 (ix2 m t')) (fun s' => x8 (ix1 s')) hupd b s t
  rw [hw] at hseg
  exact hseg

/-- The result: nodes minus edges plus faces. -/
theorem result_apply (x0 : (⟨S50000x3, .f32⟩ : BufTy).Contents (Elt Ideal)) (x1 : (⟨S50000, .f32⟩ : BufTy).Contents (Elt Ideal)) (x2 : (⟨S150000, .f32⟩ : BufTy).Contents (Elt Ideal)) (x3 : (⟨S100000, .f32⟩ : BufTy).Contents (Elt Ideal)) (x4 : (⟨S50000, .i32⟩ : BufTy).Contents (Elt Ideal)) (x5 : (⟨S2x150000, .i32⟩ : BufTy).Contents (Elt Ideal)) (x6 : (⟨S3x100000, .i32⟩ : BufTy).Contents (Elt Ideal)) (x7 : (⟨S3x32, .f32⟩ : BufTy).Contents (Elt Ideal)) (x8 : (⟨S32, .f32⟩ : BufTy).Contents (Elt Ideal)) (b : Fin 64) (s t : Fin 32) :
    val_main_v93 (F := Ideal) x0 x1 x2 x3 x4 x5 x6 x7 x8 (ix3 b s t)
      = (Cert.Ecc.segEcc (M := 50000) (fun m t' => val_main_v3 (F := Ideal) x0 x1 x7 (ix2 m t')) (fun m => x4 (ix1 m)) (fun s' => x8 (ix1 s')) b s t
          - Cert.Ecc.segEcc (M := 150000) (fun m t' => val_main_v30 (F := Ideal) x0 x1 x2 x5 x7 (ix2 m t')) (fun m => val_main_v39 (F := Ideal) x4 x5 (ix1 m)) (fun s' => x8 (ix1 s')) b s t)
        + Cert.Ecc.segEcc (M := 100000) (fun m t' => val_main_v67 (F := Ideal) x0 x1 x3 x6 x7 (ix2 m t')) (fun m => val_main_v76 (F := Ideal) x4 x6 (ix1 m)) (fun s' => x8 (ix1 s')) b s t := by
  rw [val_main_v93_apply, val_main_v56_apply, seg_nodes, seg_edges, seg_faces, Ideal.addf_def, Ideal.subf_def]

end Cert.ReferenceIdeal.RefValue

end
-- ==== Proof.lean ====
/-
  The kernel and its reference compute one function of the arguments.

  Both programs first form the node heights nh = (x scaled row by row by the node weights) times the directions v, the
  edge and face heights (the maximum of the gathered endpoint or vertex heights, scaled by the edge or face weight) and
  the graph word of each simplex (its own batch word for a node, its first vertex's for an edge or a face). For each kind
  of simplex the result is the segment sum: entry (b, s, t) is the sum over the simplices whose word is b of the sigmoid
  bump sigma(500 (lin(s) - h(m, t))); the whole result is nodes minus edges plus faces.

  The reference adds every simplex's [32 x 32] slab of bumps into the row its word names, dropping a word that names no
  row. The kernel walks the simplices 2000 at a time and, for each tile, multiplies the [64 x 2000] indicator matrix of
  "word = b" into the tile's [2000 x 1024] matrix of bumps, adding the product into a block it zeroed at the first tile: a
  word that names no row matches no indicator. Over the extended reals both are the same finite sum, regrouped: the sigmoid
  as one operation and as 1 / (1 + exp(-z)) are one function, a narrowing of a float format is the identity, 1 * x = x,
  0 * x = 0 and 0 + x = x hold for every extended real, and a finite sum does not depend on its grouping into tiles. No
  input needs to be finite for this, and no graph word or vertex index needs to be in range: the precondition is never used.

  The three frames are the generated ones (the reference's is its generated run with the result dropped); the idealization
  rewrote nothing, so preserves is trivial.
-/
import proofs.«429715_j15942918603129_1_alg».proof.Defs
import proofs.«429715_j15942918603129_1_alg».proof.Proof.Gen.Kernel
import proofs.«429715_j15942918603129_1_alg».proof.Proof.Gen.Kernel.Frame
import proofs.«429715_j15942918603129_1_alg».proof.Proof.Gen.KernelIdeal
import proofs.«429715_j15942918603129_1_alg».proof.Proof.Gen.KernelIdeal.Frame
import proofs.«429715_j15942918603129_1_alg».proof.Proof.Gen.ReferenceIdeal
import proofs.«429715_j15942918603129_1_alg».proof.Proof.Gen.ReferenceIdeal.Run
import proofs.«429715_j15942918603129_1_alg».proof.Proof.Gen.ReferenceIdeal.Read
import proofs.«429715_j15942918603129_1_alg».proof.Proof.Gen.Pre_finite_inputs
import proofs.«429715_j15942918603129_1_alg».proof.Proof.KernelRun
import proofs.«429715_j15942918603129_1_alg».proof.Proof.KernelValue
import proofs.«429715_j15942918603129_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with nodes minus edges plus faces at every entry. -/
theorem algebraic : Cert.algebraic_KernelIdeal_ReferenceIdeal := by
  intro m ρ m' ρ' _ hagree
  refine ⟨fun c => Cert.KernelIdeal.KValue.result m ρ c, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq]
  obtain ⟨h0, h1, h2, h3, h4, h5, h6, h7, h8⟩ := hagree c
  rw [h0, h1, h2, h3, h4, h5, h6, h7, h8]
  funext j
  obtain ⟨b, s, t, rfl⟩ : ∃ (b : Fin 64) (s t : Fin 32), j = ix3 b s t := ⟨j 0, j 1, j 2, eq_ix3 j⟩
  rw [Cert.ReferenceIdeal.RefValue.result_apply]
  exact (Cert.KernelIdeal.KValue.result_apply m ρ c b s t).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
